-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S500000 : Shape := ⟨1, ![500000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S64x1 .f32) (main_arg11 : FVec F S1 .f32) (main_v33 : IVec S_ 1) : IVec S_ 1 :=
  let main_v34 : FVec F S64x1 .f32 := Host.absf main_arg10
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S64 .f32) (main_arg8 : FVec F S64 .f32) (main_arg9 : FVec F S64 .f32) (main_arg10 : FVec F S64x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_v33

def fn {F : FTy → Type} [FloatOps F] (main_arg0 : FVec F S100000x128 .f32) (main_arg1 : IVec S2x3200000 32) (main_arg2 : IVec S500000 32) (main_arg3 : IVec S500000 32) (main_arg4 : FVec F S128x64 .f32) (main_arg5 : FVec F S64 .f32) (main_arg6 : FVec F S64x64 .f32) (main_arg7 : FVec F S64 .f32) (main_arg8 : FVec F S64 .f32) (main_arg9 : FVec F S64 .f32) (main_arg10 : FVec F S64x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_v13 main_v16
-- ==== Kernel.lean ====
abbrev S100000x128 : Shape := ⟨2, ![100000, 128]⟩
abbrev S2x3200000 : Shape := ⟨2, ![2, 3200000]⟩
abbrev S500000 : Shape := ⟨1, ![500000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x64 : Shape := ⟨2, ![100000, 64]⟩
abbrev S10000x128 : Shape := ⟨2, ![10000, 128]⟩
abbrev S10000x64 : Shape := ⟨2, ![10000, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S500000x1 : Shape := ⟨2, ![500000, 1]⟩
abbrev S500000x64 : Shape := ⟨2, ![500000, 64]⟩
abbrev S1024x64 : Shape := ⟨2, ![1024, 64]⟩
abbrev S1024 : Shape := ⟨1, ![1024]⟩
abbrev S1024x1 : Shape := ⟨2, ![1024, 1]⟩
abbrev S1x1 : Shape := ⟨2, ![1, 1]⟩

abbrev nBuf : Space → Nat
  | .hbm => 105
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S500000, .i32⟩
  | .hbm, ⟨3, _⟩ => ⟨S500000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S100000x64, .f32⟩
  | .hbm, ⟨13, _⟩ => ⟨S100000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S1x3200000, .i32⟩
  | .hbm, ⟨18, _⟩ => ⟨S3200000, .i32⟩
  | .hbm, ⟨19, _⟩ => ⟨S3300000, .i32⟩
  | .hbm, ⟨20, _⟩ => ⟨S_, .f32⟩
  | .hbm, ⟨21, _⟩ => ⟨S3300000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x64, .f32⟩
  | .hbm, ⟨62, _⟩ => ⟨S3300000x1, .f32⟩
  | .hbm, ⟨63, _⟩ => ⟨S3300000x64, .f32⟩
  | .hbm, ⟨64, _⟩ => ⟨S3300000x64, .f32⟩
  | .hbm, ⟨65, _⟩ => ⟨S_, .f32⟩
  | .hbm, ⟨66, _⟩ => ⟨S100000x64, .f32⟩
  | .hbm, ⟨67, _⟩ => ⟨S3300000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S500000, .i32⟩
  | .hbm, ⟨77, _⟩ => ⟨S500000, .i1⟩
  | .hbm, ⟨78, _⟩ => ⟨S_, .i32⟩
  | .hbm, ⟨79, _⟩ => ⟨S500000, .i32⟩
  | .hbm, ⟨80, _⟩ => ⟨S500000, .i32⟩
  | .hbm, ⟨81, _⟩ => ⟨S500000, .i32⟩
  | .hbm, ⟨82, _⟩ => ⟨S500000x1, .i32⟩
  | .hbm, ⟨83, _⟩ => ⟨S500000x64, .f32⟩
  | .hbm, ⟨84, _⟩ => ⟨S_, .f32⟩
  | .hbm, ⟨85, _⟩ => ⟨S1024x64, .f32⟩
  | .hbm, ⟨86, _⟩ => ⟨S500000x1, .i32⟩
  | .hbm, ⟨87, _⟩ => ⟨S1024x64, .f32⟩
  | .hbm, ⟨88, _⟩ => ⟨S_, .f32⟩
  | .hbm, ⟨89, _⟩ => ⟨S500000, .f32⟩
  | .hbm, ⟨90, _⟩ => ⟨S_, .f32⟩
  | .hbm, ⟨91, _⟩ => ⟨S1024, .f32⟩
  | .hbm, ⟨92, _⟩ => ⟨S500000x1, .i32⟩
  | .hbm, ⟨93, _⟩ => ⟨S1024, .f32⟩
  | .hbm, ⟨94, _⟩ => ⟨S_, .f32⟩
  | .hbm, ⟨95, _⟩ => ⟨S1024, .f32⟩
  | .hbm, ⟨96, _⟩ => ⟨S1024, .f32⟩
  | .hbm, ⟨97, _⟩ => ⟨S1024x1, .f32⟩
  | .hbm, ⟨98, _⟩ => ⟨S1024x64, .f32⟩
  | .hbm, ⟨99, _⟩ => ⟨S1024x64, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S1x1, .f32⟩
  | .hbm, ⟨104, _⟩ => ⟨S1024x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S1024x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x1, .f32⟩
  | .local _ .vmem, ⟨11, _⟩ => ⟨S1x1, .f32⟩
  | .local _ .vmem, ⟨12, _⟩ => ⟨S1024x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  shapeCasts_S64_S1x64 : S64.ShapeCasts S1x64
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S64 : S1024x64.Reduces [0] S64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S10000x128_S128x64_S10000x64_1_0_0_1_n_n_wf : DotDims.WF S10000x128 S128x64 S10000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  gather_S100000x64_S500000x1_S500000x64_1_0_n_n_0_1_164_wf : GatherDims.WF S100000x64 S500000x1 S500000x64 [1] [0] [] [0] [] 1 ![1, 64]
  scatter_S1024x64_S500000x1_S500000x64_1_0_0_1_wf : ScatterDims.WF S1024x64 S500000x1 S500000x64 [1] [0] [0] 1
  scatter_S1024_S500000x1_S500000_n_0_0_1_wf : ScatterDims.WF S1024 S500000x1 S500000 [] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S1024x64.size a
  hwx1_0 : ∀ i : grid1.Coords, EltTy.bits .f32 = 32 ∨ (Rect.block (s := S1024x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S1024x1.size a
  hwx1_7 : ∀ i : grid1.Coords, EltTy.bits .f32 = 32 ∨ (Rect.block (s := S1024x1) S1024x1.size (cc1_transform_7 i) (hinb1_7 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S1024x64_S500000x1_S500000x64_1_0_0_1 : ScatterDims S1024x64 S500000x1 S500000x64 where
  updateWindowDims := [1]
  insertedWindowDims := [0]
  scatterDimsToOperandDims := [0]
  indexVectorDim := 1
  wf := scatter_S1024x64_S500000x1_S500000x64_1_0_0_1_wf
def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v66) S1024x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v70) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v71) S1024x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S500000 : Shape := ⟨1, ![500000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S500000x1 : Shape := ⟨2, ![500000, 1]⟩
abbrev S500000x64 : Shape := ⟨2, ![500000, 64]⟩
abbrev S1024x64 : Shape := ⟨2, ![1024, 64]⟩
abbrev S1024 : Shape := ⟨1, ![1024]⟩
abbrev S1024x1 : Shape := ⟨2, ![1024, 1]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S2x3200000, .i32⟩
  | 2 => ⟨S500000, .i32⟩
  | 3 => ⟨S500000, .i32⟩
  | 4 => ⟨S128x64, .f32⟩
  | 5 => ⟨S64, .f32⟩
  | 6 => ⟨S64x64, .f32⟩
  | 7 => ⟨S64, .f32⟩
  | 8 => ⟨S64, .f32⟩
  | 9 => ⟨S64, .f32⟩
  | 10 => ⟨S64x1, .f32⟩
  | 11 => ⟨S1, .f32⟩
  | 12 => ⟨S100000, .i32⟩
  | 13 => ⟨S1x3200000, .i32⟩
  | 14 => ⟨S3200000, .i32⟩
  | 15 => ⟨S3300000, .i32⟩
  | 16 => ⟨S1x3200000, .i32⟩
  | 17 => ⟨S3200000, .i32⟩
  | 18 => ⟨S3300000, .i32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000, .f32⟩
  | 51 => ⟨S3300000, .f32⟩
  | 52 => ⟨S100000x64, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000x64, .f32⟩
  | 62 => ⟨S3300000x1, .f32⟩
  | 63 => ⟨S3300000x64, .f32⟩
  | 64 => ⟨S3300000x64, .f32⟩
  | 65 => ⟨S_, .f32⟩
  | 66 => ⟨S100000x64, .f32⟩
  | 67 => ⟨S3300000x1, .i32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000x64, .f32⟩
  | 84 => ⟨S_, .f32⟩
  | 85 => ⟨S1024x64, .f32⟩
  | 86 => ⟨S500000x1, .i32⟩
  | 87 => ⟨S1024x64, .f32⟩
  | 88 => ⟨S_, .f32⟩
  | 89 => ⟨S500000, .f32⟩
  | 90 => ⟨S_, .f32⟩
  | 91 => ⟨S1024, .f32⟩
  | 92 => ⟨S500000x1, .i32⟩
  | 93 => ⟨S1024, .f32⟩
  | 94 => ⟨S_, .f32⟩
  | 95 => ⟨S1024, .f32⟩
  | 96 => ⟨S1024, .f32⟩
  | 97 => ⟨S1024x1, .f32⟩
  | 98 => ⟨S1024x64, .f32⟩
  | 99 => ⟨S1024x64, .f32⟩
  | 100 => ⟨S1024x64, .f32⟩
  | 101 => ⟨S1x64, .f32⟩
  | 102 => ⟨S1024x64, .f32⟩
  | 103 => ⟨S1024x64, .f32⟩
  | 104 => ⟨S_, .f32⟩
  | 105 => ⟨S1024x64, .f32⟩
  | 106 => ⟨S1024x64, .f32⟩
  | 107 => ⟨S_, .f32⟩
  | 108 => ⟨S64, .f32⟩
  | 109 => ⟨S_, .f32⟩
  | 110 => ⟨S64, .f32⟩
  | 111 => ⟨S64, .f32⟩
  | 112 => ⟨S1x64, .f32⟩
  | 113 => ⟨S1024x64, .f32⟩
  | 114 => ⟨S1024x64, .f32⟩
  | 115 => ⟨S1024x64, .f32⟩
  | 116 => ⟨S_, .f32⟩
  | 117 => ⟨S64, .f32⟩
  | 118 => ⟨S_, .f32⟩
  | 119 => ⟨S64, .f32⟩
  | 120 => ⟨S64, .f32⟩
  | 121 => ⟨S1x64, .f32⟩
  | 122 => ⟨S1024x64, .f32⟩
  | 123 => ⟨S1024x64, .f32⟩
  | 124 => ⟨S_, .f32⟩
  | 125 => ⟨S64, .f32⟩
  | 126 => ⟨S64, .f32⟩
  | 127 => ⟨S64, .f32⟩
  | _ => ⟨S100000x128, .f32⟩

abbrev hbmTy0_1 (i : Nat) : BufTy := match i % 128 with
  | 0 => ⟨S1x64, .f32⟩
  | 1 => ⟨S1024x64, .f32⟩
  | 2 => ⟨S1024x64, .f32⟩
  | 3 => ⟨S1x64, .f32⟩
  | 4 => ⟨S1024x64, .f32⟩
  | 5 => ⟨S1024x64, .f32⟩
  | 6 => ⟨S1x64, .f32⟩
  | 7 => ⟨S1024x64, .f32⟩
  | 8 => ⟨S1024x64, .f32⟩
  | 9 => ⟨S1024x1, .f32⟩
  | 10 => ⟨S1x1, .f32⟩
  | 11 => ⟨S1024x1, .f32⟩
  | 12 => ⟨S1024x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call2_cst : Ref sig .tc := ⟨.hbm, 104, rfl⟩
abbrev main_call2_v0 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_cst_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  reducesTo_S1024x64_S64_d0 : S1024x64.ReducesTo [0] S64
  h_S_ : 0 < S_.numel
  bcast_S_S64 : S_.BroadcastsInDim S64 (![] : Fin 0 → Fin S64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  gather_S100000x64_S500000x1_S500000x64_1_0_n_n_0_1_164_wf : GatherDims.WF S100000x64 S500000x1 S500000x64 [1] [0] [] [0] [] 1 ![1, 64]
  scatter_S1024x64_S500000x1_S500000x64_1_0_0_1_wf : ScatterDims.WF S1024x64 S500000x1 S500000x64 [1] [0] [0] 1
  scatter_S1024_S500000x1_S500000_n_0_0_1_wf : ScatterDims.WF S1024 S500000x1 S500000 [] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S1024x64_S500000x1_S500000x64_1_0_0_1 : ScatterDims S1024x64 S500000x1 S500000x64 where
  updateWindowDims := [1]
  insertedWindowDims := [0]
  scatterDimsToOperandDims := [0]
  indexVectorDim := 1
  wf := scatter_S1024x64_S500000x1_S500000x64_1_0_0_1_wf
def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.HostStretch.lean ====
/-
  The host operations between the kernel's two regions, read one stretch at a time.

  Between the first region (the node projection xw = full_x · W_enc) and the second (the predictor) the kernel's
  program runs, in five stretches, the graph convolution's normalised scatter-aggregate, the bias and relu, the
  gather of the sub-graph's nodes, the segment-mean pool, and the reshapes of the predictor's row vectors. The
  reference runs the very same operations on its own projection. Each lemma below reads one stretch from ANY
  contents V: a buffer the stretch computes equals the reference's stage of the same name as soon as the buffers
  the stretch reads hold the reference's stages (hypotheses), and a buffer the stretch does not write keeps its
  contents. Nothing is opened: both sides are the same composition of the same operations, so each equation closes
  by unfolding the stage definitions. All statements hold at any float instance.
-/
import proofs.«152564_j74612171866465_1_alg».proof.Proof.Gen.KernelIdeal.Launch
import proofs.«152564_j74612171866465_1_alg».proof.Proof.RefReadP
import Idealize.ShloMosaic.Lib.StableHlo.Run

noncomputable section

namespace Cert.Bridge.Host

open Cert.KernelIdeal Cert.KernelIdeal.Gen
open Idealize.ShloMosaic Idealize.ShloMosaic.TcCoe Idealize.ShloMosaic.StableHlo
open Cert.ReferenceIdeal.ReadP (val_main_v3 val_main_v6 val_main_v12 val_main_v13 val_main_cst_2 val_main_v14 val_main_v30
  val_main_v46 val_main_v47 val_main_v66)

variable {F : FTy → Type} [FloatOps F]

/-- A buffer that no operation of a stretch writes keeps its contents through the stretch: the stretch's written
    references are read off its operations, and the buffer differs from each. -/
macro "kept_through " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Stretch 1: the edge lists with self loops, the degrees, their inverse square roots -/

section S1
variable (V : Valuation τ sig (Elt F))

/-- The source list (edge sources followed by every node). -/
theorem s1_v4 : after hostOps1 V (Proc.devRef .tc main_v4) = val_main_v3 (F := F) (V (Proc.devRef .tc main_arg1)) := by
  unfold hostOps1; after_results_simp; rfl
/-- The target list (edge targets followed by every node). -/
theorem s1_v7 : after hostOps1 V (Proc.devRef .tc main_v7) = val_main_v6 (F := F) (V (Proc.devRef .tc main_arg1)) := by
  unfold hostOps1; after_results_simp; rfl
/-- Which nodes have positive degree. -/
theorem s1_v13 : after hostOps1 V (Proc.devRef .tc main_v13) = val_main_v12 (F := F) (V (Proc.devRef .tc main_arg1)) := by
  unfold hostOps1; after_results_simp; rfl
/-- The inverse square root of the degrees. -/
theorem s1_v14 : after hostOps1 V (Proc.devRef .tc main_v14) = val_main_v13 (F := F) (V (Proc.devRef .tc main_arg1)) := by
  unfold hostOps1; after_results_simp; rfl
/-- The zero the degree-free nodes get. -/
theorem s1_cst_2 : after hostOps1 V (Proc.devRef .tc main_cst_2) = val_main_cst_2 (F := F) := by
  unfold hostOps1; after_results_simp; rfl

theorem s1_keep_v0 : after hostOps1 V (Proc.devRef .tc main_v0) = V (Proc.devRef .tc main_v0) := by kept_through hostOps1
theorem s1_keep_arg2 : after hostOps1 V (Proc.devRef .tc main_arg2) = V (Proc.devRef .tc main_arg2) := by kept_through hostOps1
theorem s1_keep_arg3 : after hostOps1 V (Proc.devRef .tc main_arg3) = V (Proc.devRef .tc main_arg3) := by kept_through hostOps1
theorem s1_keep_arg5 : after hostOps1 V (Proc.devRef .tc main_arg5) = V (Proc.devRef .tc main_arg5) := by kept_through hostOps1
theorem s1_keep_arg6 : after hostOps1 V (Proc.devRef .tc main_arg6) = V (Proc.devRef .tc main_arg6) := by kept_through hostOps1
theorem s1_keep_arg7 : after hostOps1 V (Proc.devRef .tc main_arg7) = V (Proc.devRef .tc main_arg7) := by kept_through hostOps1
theorem s1_keep_arg8 : after hostOps1 V (Proc.devRef .tc main_arg8) = V (Proc.devRef .tc main_arg8) := by kept_through hostOps1
theorem s1_keep_arg9 : after hostOps1 V (Proc.devRef .tc main_arg9) = V (Proc.devRef .tc main_arg9) := by kept_through hostOps1
theorem s1_keep_arg10 : after hostOps1 V (Proc.devRef .tc main_arg10) = V (Proc.devRef .tc main_arg10) := by kept_through hostOps1
theorem s1_keep_arg11 : after hostOps1 V (Proc.devRef .tc main_arg11) = V (Proc.devRef .tc main_arg11) := by kept_through hostOps1
end S1

/-! ## Stretch 2: the inverse square root where the degree is positive, zero elsewhere -/

section S2
variable (V : Valuation τ sig (Elt F)) (x1 : (⟨S2x3200000, .i32⟩ : BufTy).Contents (Elt F))

theorem s2_v15 (h13 : V (Proc.devRef .tc main_v13) = val_main_v12 (F := F) x1) (h14 : V (Proc.devRef .tc main_v14) = val_main_v13 (F := F) x1)
    (hc : V (Proc.devRef .tc main_cst_2) = val_main_cst_2 (F := F)) :
    after hostOps1_1 V (Proc.devRef .tc main_v15) = val_main_v14 (F := F) x1 := by
  unfold hostOps1_1; after_results_simp; rw [h13, h14, hc]; rfl

theorem s2_keep_v0 : after hostOps1_1 V (Proc.devRef .tc main_v0) = V (Proc.devRef .tc main_v0) := by kept_through hostOps1_1
theorem s2_keep_v4 : after hostOps1_1 V (Proc.devRef .tc main_v4) = V (Proc.devRef .tc main_v4) := by kept_through hostOps1_1
theorem s2_keep_v7 : after hostOps1_1 V (Proc.devRef .tc main_v7) = V (Proc.devRef .tc main_v7) := by kept_through hostOps1_1
theorem s2_keep_arg2 : after hostOps1_1 V (Proc.devRef .tc main_arg2) = V (Proc.devRef .tc main_arg2) := by kept_through hostOps1_1
theorem s2_keep_arg3 : after hostOps1_1 V (Proc.devRef .tc main_arg3) = V (Proc.devRef .tc main_arg3) := by kept_through hostOps1_1
theorem s2_keep_arg5 : after hostOps1_1 V (Proc.devRef .tc main_arg5) = V (Proc.devRef .tc main_arg5) := by kept_through hostOps1_1
theorem s2_keep_arg6 : after hostOps1_1 V (Proc.devRef .tc main_arg6) = V (Proc.devRef .tc main_arg6) := by kept_through hostOps1_1
theorem s2_keep_arg7 : after hostOps1_1 V (Proc.devRef .tc main_arg7) = V (Proc.devRef .tc main_arg7) := by kept_through hostOps1_1
theorem s2_keep_arg8 : after hostOps1_1 V (Proc.devRef .tc main_arg8) = V (Proc.devRef .tc main_arg8) := by kept_through hostOps1_1
theorem s2_keep_arg9 : after hostOps1_1 V (Proc.devRef .tc main_arg9) = V (Proc.devRef .tc main_arg9) := by kept_through hostOps1_1
theorem s2_keep_arg10 : after hostOps1_1 V (Proc.devRef .tc main_arg10) = V (Proc.devRef .tc main_arg10) := by kept_through hostOps1_1
theorem s2_keep_arg11 : after hostOps1_1 V (Proc.devRef .tc main_arg11) = V (Proc.devRef .tc main_arg11) := by kept_through hostOps1_1
end S2

/-! ## Stretch 3: the messages xw[source] · norm, summed into their targets, plus the bias -/

section S3
variable (V : Valuation τ sig (Elt F)) (x0 : (⟨S100000x128, .f32⟩ : BufTy).Contents (Elt F)) (x1 : (⟨S2x3200000, .i32⟩ : BufTy).Contents (Elt F))
  (x4 : (⟨S128x64, .f32⟩ : BufTy).Contents (Elt F)) (x5 : (⟨S64, .f32⟩ : BufTy).Contents (Elt F))

theorem s3_v46 (h0 : V (Proc.devRef .tc main_v0) = val_main_v30 (F := F) x0 x4) (h4 : V (Proc.devRef .tc main_v4) = val_main_v3 (F := F) x1)
    (h7 : V (Proc.devRef .tc main_v7) = val_main_v6 (F := F) x1) (h15 : V (Proc.devRef .tc main_v15) = val_main_v14 (F := F) x1)
    (h5 : V (Proc.devRef .tc main_arg5) = x5) :
    after hostOps1_2 V (Proc.devRef .tc main_v46) = val_main_v46 (F := F) x0 x1 x4 x5 := by
  unfold hostOps1_2; after_results_simp; rw [h0, h4, h7, h15, h5]; rfl

theorem s3_keep_arg2 : after hostOps1_2 V (Proc.devRef .tc main_arg2) = V (Proc.devRef .tc main_arg2) := by kept_through hostOps1_2
theorem s3_keep_arg3 : after hostOps1_2 V (Proc.devRef .tc main_arg3) = V (Proc.devRef .tc main_arg3) := by kept_through hostOps1_2
theorem s3_keep_arg6 : after hostOps1_2 V (Proc.devRef .tc main_arg6) = V (Proc.devRef .tc main_arg6) := by kept_through hostOps1_2
theorem s3_keep_arg7 : after hostOps1_2 V (Proc.devRef .tc main_arg7) = V (Proc.devRef .tc main_arg7) := by kept_through hostOps1_2
theorem s3_keep_arg8 : after hostOps1_2 V (Proc.devRef .tc main_arg8) = V (Proc.devRef .tc main_arg8) := by kept_through hostOps1_2
theorem s3_keep_arg9 : after hostOps1_2 V (Proc.devRef .tc main_arg9) = V (Proc.devRef .tc main_arg9) := by kept_through hostOps1_2
theorem s3_keep_arg10 : after hostOps1_2 V (Proc.devRef .tc main_arg10) = V (Proc.devRef .tc main_arg10) := by kept_through hostOps1_2
theorem s3_keep_arg11 : after hostOps1_2 V (Proc.devRef .tc main_arg11) = V (Proc.devRef .tc main_arg11) := by kept_through hostOps1_2
end S3

/-! ## Stretch 4: the relu -/

section S4
variable (V : Valuation τ sig (Elt F)) (x0 : (⟨S100000x128, .f32⟩ : BufTy).Contents (Elt F)) (x1 : (⟨S2x3200000, .i32⟩ : BufTy).Contents (Elt F))
  (x4 : (⟨S128x64, .f32⟩ : BufTy).Contents (Elt F)) (x5 : (⟨S64, .f32⟩ : BufTy).Contents (Elt F))

theorem s4_v47 (h46 : V (Proc.devRef .tc main_v46) = val_main_v46 (F := F) x0 x1 x4 x5) :
    after hostOps1_3 V (Proc.devRef .tc main_v47) = val_main_v47 (F := F) x0 x1 x4 x5 := by
  unfold hostOps1_3; after_results_simp; rw [h46]; rfl

theorem s4_keep_arg2 : after hostOps1_3 V (Proc.devRef .tc main_arg2) = V (Proc.devRef .tc main_arg2) := by kept_through hostOps1_3
theorem s4_keep_arg3 : after hostOps1_3 V (Proc.devRef .tc main_arg3) = V (Proc.devRef .tc main_arg3) := by kept_through hostOps1_3
theorem s4_keep_arg6 : after hostOps1_3 V (Proc.devRef .tc main_arg6) = V (Proc.devRef .tc main_arg6) := by kept_through hostOps1_3
theorem s4_keep_arg7 : after hostOps1_3 V (Proc.devRef .tc main_arg7) = V (Proc.devRef .tc main_arg7) := by kept_through hostOps1_3
theorem s4_keep_arg8 : after hostOps1_3 V (Proc.devRef .tc main_arg8) = V (Proc.devRef .tc main_arg8) := by kept_through hostOps1_3
theorem s4_keep_arg9 : after hostOps1_3 V (Proc.devRef .tc main_arg9) = V (Proc.devRef .tc main_arg9) := by kept_through hostOps1_3
theorem s4_keep_arg10 : after hostOps1_3 V (Proc.devRef .tc main_arg10) = V (Proc.devRef .tc main_arg10) := by kept_through hostOps1_3
theorem s4_keep_arg11 : after hostOps1_3 V (Proc.devRef .tc main_arg11) = V (Proc.devRef .tc main_arg11) := by kept_through hostOps1_3
end S4

/-! ## Stretch 5: the sub-graph's rows gathered, summed per graph and divided by the graph's size; the predictor's
    row vectors reshaped -/

section S5
variable (V : Valuation τ sig (Elt F)) (x0 : (⟨S100000x128, .f32⟩ : BufTy).Contents (Elt F)) (x1 : (⟨S2x3200000, .i32⟩ : BufTy).Contents (Elt F))
  (x2 x3 : (⟨S500000, .i32⟩ : BufTy).Contents (Elt F))
  (x4 : (⟨S128x64, .f32⟩ : BufTy).Contents (Elt F)) (x5 : (⟨S64, .f32⟩ : BufTy).Contents (Elt F))

theorem s5_v66 (h47 : V (Proc.devRef .tc main_v47) = val_main_v47 (F := F) x0 x1 x4 x5)
    (h2 : V (Proc.devRef .tc main_arg2) = x2) (h3 : V (Proc.devRef .tc main_arg3) = x3) :
    after hostOps1_4 V (Proc.devRef .tc main_v66) = val_main_v66 (F := F) x0 x1 x2 x3 x4 x5 := by
  unfold hostOps1_4; after_results_simp; rw [h47, h2, h3]; rfl

/-- The four reshapes: a [64] vector as a [1,64] row, the [1] scalar as a [1,1] array. -/
theorem s5_v67 : after hostOps1_4 V (Proc.devRef .tc main_v67)
    = (shapeCast S1x64 (V (Proc.devRef .tc main_arg7)) shapeCasts_S64_S1x64 : (⟨S1x64, .f32⟩ : BufTy).Contents (Elt F)) := by
  unfold hostOps1_4; after_results_simp; rfl
theorem s5_v68 : after hostOps1_4 V (Proc.devRef .tc main_v68)
    = (shapeCast S1x64 (V (Proc.devRef .tc main_arg8)) shapeCasts_S64_S1x64 : (⟨S1x64, .f32⟩ : BufTy).Contents (Elt F)) := by
  unfold hostOps1_4; after_results_simp; rfl
theorem s5_v69 : after hostOps1_4 V (Proc.devRef .tc main_v69)
    = (shapeCast S1x64 (V (Proc.devRef .tc main_arg9)) shapeCasts_S64_S1x64 : (⟨S1x64, .f32⟩ : BufTy).Contents (Elt F)) := by
  unfold hostOps1_4; after_results_simp; rfl
theorem s5_v70 : after hostOps1_4 V (Proc.devRef .tc main_v70)
    = (shapeCast S1x1 (V (Proc.devRef .tc main_arg11)) shapeCasts_S1_S1x1 : (⟨S1x1, .f32⟩ : BufTy).Contents (Elt F)) := by
  unfold hostOps1_4; after_results_simp; rfl

theorem s5_keep_arg6 : after hostOps1_4 V (Proc.devRef .tc main_arg6) = V (Proc.devRef .tc main_arg6) := by kept_through hostOps1_4
theorem s5_keep_arg10 : after hostOps1_4 V (Proc.devRef .tc main_arg10) = V (Proc.devRef .tc main_arg10) := by kept_through hostOps1_4
end S5

end Cert.Bridge.Host

end
-- ==== Proof.HostChain.lean ====
/-
  The host operations between the two regions, composed: what the second region finds.

  The contents at the boundaries of the kernel's program are a fold from the launch memory: W1 at the first region's
  exit, W2 … W6 after each of the five host stretches (W6 is what the second region is entered from). Chaining the
  stretch lemmas along that fold: if the first region leaves the reference's projection in its output array (the
  hypothesis hxw, which the first region's value lemma discharges), then the pooled array the second region
  reads is the reference's pooled stage of the launch arguments, its four reshaped row vectors are reshapes of the
  launch arguments, and the two weight arrays it reads are the launch arguments themselves.
-/
import proofs.«152564_j74612171866465_1_alg».proof.Proof.HostStretch
import proofs.«152564_j74612171866465_1_alg».proof.Proof.Gen.KernelIdeal.Frame

noncomputable section

namespace Cert.Bridge.Host

open Cert.KernelIdeal Cert.KernelIdeal.Gen
open Idealize.ShloMosaic Idealize.ShloMosaic.TcCoe Idealize.ShloMosaic.StableHlo Idealize.SL.Sem
open Cert.ReferenceIdeal.ReadP (val_main_v3 val_main_v6 val_main_v12 val_main_v13 val_main_cst_2 val_main_v14 val_main_v30
  val_main_v46 val_main_v47 val_main_v66)

variable {F : FTy → Type} [FloatOps F]
variable (m : (ℓ : Loc nD τ sig) → Buf (Elt F) ℓ) (ρ : Dev nD → PrngReg) (c : Dev nD)

/-! ## At the first region's exit: every launch argument but the region's own two input arrays is as launched
    (those two are too, but nothing below reads them) -/

theorem W1_arg1 : W1 m ρ c (Proc.devRef .tc main_arg1) = m ((c : Thread nD τ).loc main_arg1) := W1_of_ne m ρ c main_arg1 (by decide)
theorem W1_arg2 : W1 m ρ c (Proc.devRef .tc main_arg2) = m ((c : Thread nD τ).loc main_arg2) := W1_of_ne m ρ c main_arg2 (by decide)
theorem W1_arg3 : W1 m ρ c (Proc.devRef .tc main_arg3) = m ((c : Thread nD τ).loc main_arg3) := W1_of_ne m ρ c main_arg3 (by decide)
theorem W1_arg5 : W1 m ρ c (Proc.devRef .tc main_arg5) = m ((c : Thread nD τ).loc main_arg5) := W1_of_ne m ρ c main_arg5 (by decide)
theorem W1_arg6 : W1 m ρ c (Proc.devRef .tc main_arg6) = m ((c : Thread nD τ).loc main_arg6) := W1_of_ne m ρ c main_arg6 (by decide)
theorem W1_arg7 : W1 m ρ c (Proc.devRef .tc main_arg7) = m ((c : Thread nD τ).loc main_arg7) := W1_of_ne m ρ c main_arg7 (by decide)
theorem W1_arg8 : W1 m ρ c (Proc.devRef .tc main_arg8) = m ((c : Thread nD τ).loc main_arg8) := W1_of_ne m ρ c main_arg8 (by decide)
theorem W1_arg9 : W1 m ρ c (Proc.devRef .tc main_arg9) = m ((c : Thread nD τ).loc main_arg9) := W1_of_ne m ρ c main_arg9 (by decide)
theorem W1_arg10 : W1 m ρ c (Proc.devRef .tc main_arg10) = m ((c : Thread nD τ).loc main_arg10) := W1_of_ne m ρ c main_arg10 (by decide)
theorem W1_arg11 : W1 m ρ c (Proc.devRef .tc main_arg11) = m ((c : Thread nD τ).loc main_arg11) := W1_of_ne m ρ c main_arg11 (by decide)

/-! ## After stretch 1 -/

theorem W2_v4 : W2 m ρ c (Proc.devRef .tc main_v4) = val_main_v3 (F := F) (m ((c : Thread nD τ).loc main_arg1)) := (s1_v4 (W1 m ρ c)).trans (by rw [W1_arg1])
theorem W2_v7 : W2 m ρ c (Proc.devRef .tc main_v7) = val_main_v6 (F := F) (m ((c : Thread nD τ).loc main_arg1)) := (s1_v7 (W1 m ρ c)).trans (by rw [W1_arg1])
theorem W2_v13 : W2 m ρ c (Proc.devRef .tc main_v13) = val_main_v12 (F := F) (m ((c : Thread nD τ).loc main_arg1)) := (s1_v13 (W1 m ρ c)).trans (by rw [W1_arg1])
theorem W2_v14 : W2 m ρ c (Proc.devRef .tc main_v14) = val_main_v13 (F := F) (m ((c : Thread nD τ).loc main_arg1)) := (s1_v14 (W1 m ρ c)).trans (by rw [W1_arg1])
theorem W2_cst_2 : W2 m ρ c (Proc.devRef .tc main_cst_2) = val_main_cst_2 (F := F) := s1_cst_2 (W1 m ρ c)
theorem W2_v0 : W2 m ρ c (Proc.devRef .tc main_v0) = W1 m ρ c (Proc.devRef .tc main_v0) := s1_keep_v0 (W1 m ρ c)
theorem W2_arg2 : W2 m ρ c (Proc.devRef .tc main_arg2) = m ((c : Thread nD τ).loc main_arg2) := (s1_keep_arg2 (W1 m ρ c)).trans (W1_arg2 m ρ c)
theorem W2_arg3 : W2 m ρ c (Proc.devRef .tc main_arg3) = m ((c : Thread nD τ).loc main_arg3) := (s1_keep_arg3 (W1 m ρ c)).trans (W1_arg3 m ρ c)
theorem W2_arg5 : W2 m ρ c (Proc.devRef .tc main_arg5) = m ((c : Thread nD τ).loc main_arg5) := (s1_keep_arg5 (W1 m ρ c)).trans (W1_arg5 m ρ c)
theorem W2_arg6 : W2 m ρ c (Proc.devRef .tc main_arg6) = m ((c : Thread nD τ).loc main_arg6) := (s1_keep_arg6 (W1 m ρ c)).trans (W1_arg6 m ρ c)
theorem W2_arg7 : W2 m ρ c (Proc.devRef .tc main_arg7) = m ((c : Thread nD τ).loc main_arg7) := (s1_keep_arg7 (W1 m ρ c)).trans (W1_arg7 m ρ c)
theorem W2_arg8 : W2 m ρ c (Proc.devRef .tc main_arg8) = m ((c : Thread nD τ).loc main_arg8) := (s1_keep_arg8 (W1 m ρ c)).trans (W1_arg8 m ρ c)
theorem W2_arg9 : W2 m ρ c (Proc.devRef .tc main_arg9) = m ((c : Thread nD τ).loc main_arg9) := (s1_keep_arg9 (W1 m ρ c)).trans (W1_arg9 m ρ c)
theorem W2_arg10 : W2 m ρ c (Proc.devRef .tc main_arg10) = m ((c : Thread nD τ).loc main_arg10) := (s1_keep_arg10 (W1 m ρ c)).trans (W1_arg10 m ρ c)
theorem W2_arg11 : W2 m ρ c (Proc.devRef .tc main_arg11) = m ((c : Thread nD τ).loc main_arg11) := (s1_keep_arg11 (W1 m ρ c)).trans (W1_arg11 m ρ c)

/-! ## After stretch 2 -/

theorem W3_v15 : W3 m ρ c (Proc.devRef .tc main_v15) = val_main_v14 (F := F) (m ((c : Thread nD τ).loc main_arg1)) :=
  s2_v15 (W2 m ρ c) _ (W2_v13 m ρ c) (W2_v14 m ρ c) (W2_cst_2 m ρ c)
theorem W3_v0 : W3 m ρ c (Proc.devRef .tc main_v0) = W1 m ρ c (Proc.devRef .tc main_v0) := (s2_keep_v0 (W2 m ρ c)).trans (W2_v0 m ρ c)
theorem W3_v4 : W3 m ρ c (Proc.devRef .tc main_v4) = val_main_v3 (F := F) (m ((c : Thread nD τ).loc main_arg1)) := (s2_keep_v4 (W2 m ρ c)).trans (W2_v4 m ρ c)
theorem W3_v7 : W3 m ρ c (Proc.devRef .tc main_v7) = val_main_v6 (F := F) (m ((c : Thread nD τ).loc main_arg1)) := (s2_keep_v7 (W2 m ρ c)).trans (W2_v7 m ρ c)
theorem W3_arg2 : W3 m ρ c (Proc.devRef .tc main_arg2) = m ((c : Thread nD τ).loc main_arg2) := (s2_keep_arg2 (W2 m ρ c)).trans (W2_arg2 m ρ c)
theorem W3_arg3 : W3 m ρ c (Proc.devRef .tc main_arg3) = m ((c : Thread nD τ).loc main_arg3) := (s2_keep_arg3 (W2 m ρ c)).trans (W2_arg3 m ρ c)
theorem W3_arg5 : W3 m ρ c (Proc.devRef .tc main_arg5) = m ((c : Thread nD τ).loc main_arg5) := (s2_keep_arg5 (W2 m ρ c)).trans (W2_arg5 m ρ c)
theorem W3_arg6 : W3 m ρ c (Proc.devRef .tc main_arg6) = m ((c : Thread nD τ).loc main_arg6) := (s2_keep_arg6 (W2 m ρ c)).trans (W2_arg6 m ρ c)
theorem W3_arg7 : W3 m ρ c (Proc.devRef .tc main_arg7) = m ((c : Thread nD τ).loc main_arg7) := (s2_keep_arg7 (W2 m ρ c)).trans (W2_arg7 m ρ c)
theorem W3_arg8 : W3 m ρ c (Proc.devRef .tc main_arg8) = m ((c : Thread nD τ).loc main_arg8) := (s2_keep_arg8 (W2 m ρ c)).trans (W2_arg8 m ρ c)
theorem W3_arg9 : W3 m ρ c (Proc.devRef .tc main_arg9) = m ((c : Thread nD τ).loc main_arg9) := (s2_keep_arg9 (W2 m ρ c)).trans (W2_arg9 m ρ c)
theorem W3_arg10 : W3 m ρ c (Proc.devRef .tc main_arg10) = m ((c : Thread nD τ).loc main_arg10) := (s2_keep_arg10 (W2 m ρ c)).trans (W2_arg10 m ρ c)
theorem W3_arg11 : W3 m ρ c (Proc.devRef .tc main_arg11) = m ((c : Thread nD τ).loc main_arg11) := (s2_keep_arg11 (W2 m ρ c)).trans (W2_arg11 m ρ c)

/-! ## After stretches 3 and 4: the convolution's output, then its relu -/

section
variable (hxw : W1 m ρ c (Proc.devRef .tc main_v0) = val_main_v30 (F := F) (m ((c : Thread nD τ).loc main_arg0)) (m ((c : Thread nD τ).loc main_arg4)))
include hxw

theorem W4_v46 : W4 m ρ c (Proc.devRef .tc main_v46) = val_main_v46 (F := F) (m ((c : Thread nD τ).loc main_arg0)) (m ((c : Thread nD τ).loc main_arg1)) (m ((c : Thread nD τ).loc main_arg4)) (m ((c : Thread nD τ).loc main_arg5)) :=
  s3_v46 (W3 m ρ c) _ _ _ _ ((W3_v0 m ρ c).trans hxw) (W3_v4 m ρ c) (W3_v7 m ρ c) (W3_v15 m ρ c) (W3_arg5 m ρ c)

theorem W5_v47 : W5 m ρ c (Proc.devRef .tc main_v47) = val_main_v47 (F := F) (m ((c : Thread nD τ).loc main_arg0)) (m ((c : Thread nD τ).loc main_arg1)) (m ((c : Thread nD τ).loc main_arg4)) (m ((c : Thread nD τ).loc main_arg5)) :=
  s4_v47 (W4 m ρ c) _ _ _ _ (W4_v46 m ρ c hxw)
end

theorem W4_arg2 : W4 m ρ c (Proc.devRef .tc main_arg2) = m ((c : Thread nD τ).loc main_arg2) := (s3_keep_arg2 (W3 m ρ c)).trans (W3_arg2 m ρ c)
theorem W4_arg3 : W4 m ρ c (Proc.devRef .tc main_arg3) = m ((c : Thread nD τ).loc main_arg3) := (s3_keep_arg3 (W3 m ρ c)).trans (W3_arg3 m ρ c)
theorem W4_arg6 : W4 m ρ c (Proc.devRef .tc main_arg6) = m ((c : Thread nD τ).loc main_arg6) := (s3_keep_arg6 (W3 m ρ c)).trans (W3_arg6 m ρ c)
theorem W4_arg7 : W4 m ρ c (Proc.devRef .tc main_arg7) = m ((c : Thread nD τ).loc main_arg7) := (s3_keep_arg7 (W3 m ρ c)).trans (W3_arg7 m ρ c)
theorem W4_arg8 : W4 m ρ c (Proc.devRef .tc main_arg8) = m ((c : Thread nD τ).loc main_arg8) := (s3_keep_arg8 (W3 m ρ c)).trans (W3_arg8 m ρ c)
theorem W4_arg9 : W4 m ρ c (Proc.devRef .tc main_arg9) = m ((c : Thread nD τ).loc main_arg9) := (s3_keep_arg9 (W3 m ρ c)).trans (W3_arg9 m ρ c)
theorem W4_arg10 : W4 m ρ c (Proc.devRef .tc main_arg10) = m ((c : Thread nD τ).loc main_arg10) := (s3_keep_arg10 (W3 m ρ c)).trans (W3_arg10 m ρ c)
theorem W4_arg11 : W4 m ρ c (Proc.devRef .tc main_arg11) = m ((c : Thread nD τ).loc main_arg11) := (s3_keep_arg11 (W3 m ρ c)).trans (W3_arg11 m ρ c)
theorem W5_arg2 : W5 m ρ c (Proc.devRef .tc main_arg2) = m ((c : Thread nD τ).loc main_arg2) := (s4_keep_arg2 (W4 m ρ c)).trans (W4_arg2 m ρ c)
theorem W5_arg3 : W5 m ρ c (Proc.devRef .tc main_arg3) = m ((c : Thread nD τ).loc main_arg3) := (s4_keep_arg3 (W4 m ρ c)).trans (W4_arg3 m ρ c)
theorem W5_arg6 : W5 m ρ c (Proc.devRef .tc main_arg6) = m ((c : Thread nD τ).loc main_arg6) := (s4_keep_arg6 (W4 m ρ c)).trans (W4_arg6 m ρ c)
theorem W5_arg7 : W5 m ρ c (Proc.devRef .tc main_arg7) = m ((c : Thread nD τ).loc main_arg7) := (s4_keep_arg7 (W4 m ρ c)).trans (W4_arg7 m ρ c)
theorem W5_arg8 : W5 m ρ c (Proc.devRef .tc main_arg8) = m ((c : Thread nD τ).loc main_arg8) := (s4_keep_arg8 (W4 m ρ c)).trans (W4_arg8 m ρ c)
theorem W5_arg9 : W5 m ρ c (Proc.devRef .tc main_arg9) = m ((c : Thread nD τ).loc main_arg9) := (s4_keep_arg9 (W4 m ρ c)).trans (W4_arg9 m ρ c)
theorem W5_arg10 : W5 m ρ c (Proc.devRef .tc main_arg10) = m ((c : Thread nD τ).loc main_arg10) := (s4_keep_arg10 (W4 m ρ c)).trans (W4_arg10 m ρ c)
theorem W5_arg11 : W5 m ρ c (Proc.devRef .tc main_arg11) = m ((c : Thread nD τ).loc main_arg11) := (s4_keep_arg11 (W4 m ρ c)).trans (W4_arg11 m ρ c)

/-! ## After stretch 5: what the second region is entered from -/

/-- The pooled array: the reference's pooled stage of the launch arguments. -/
theorem W6_v66 (hxw : W1 m ρ c (Proc.devRef .tc main_v0) = val_main_v30 (F := F) (m ((c : Thread nD τ).loc main_arg0)) (m ((c : Thread nD τ).loc main_arg4))) :
    W6 m ρ c (Proc.devRef .tc main_v66) = val_main_v66 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  s5_v66 (W5 m ρ c) _ _ _ _ _ _ (W5_v47 m ρ c hxw) (W5_arg2 m ρ c) (W5_arg3 m ρ c)

/-- The first layer's bias, the scale and the shift as [1,64] rows, the second layer's bias as a [1,1] array. -/
theorem W6_v67 : W6 m ρ c (Proc.devRef .tc main_v67) = (shapeCast S1x64 (m ((c : Thread nD τ).loc main_arg7)) shapeCasts_S64_S1x64 : (⟨S1x64, .f32⟩ : BufTy).Contents (Elt F)) :=
  (s5_v67 (W5 m ρ c)).trans (by rw [W5_arg7])
theorem W6_v68 : W6 m ρ c (Proc.devRef .tc main_v68) = (shapeCast S1x64 (m ((c : Thread nD τ).loc main_arg8)) shapeCasts_S64_S1x64 : (⟨S1x64, .f32⟩ : BufTy).Contents (Elt F)) :=
  (s5_v68 (W5 m ρ c)).trans (by rw [W5_arg8])
theorem W6_v69 : W6 m ρ c (Proc.devRef .tc main_v69) = (shapeCast S1x64 (m ((c : Thread nD τ).loc main_arg9)) shapeCasts_S64_S1x64 : (⟨S1x64, .f32⟩ : BufTy).Contents (Elt F)) :=
  (s5_v69 (W5 m ρ c)).trans (by rw [W5_arg9])
theorem W6_v70 : W6 m ρ c (Proc.devRef .tc main_v70) = (shapeCast S1x1 (m ((c : Thread nD τ).loc main_arg11)) shapeCasts_S1_S1x1 : (⟨S1x1, .f32⟩ : BufTy).Contents (Elt F)) :=
  (s5_v70 (W5 m ρ c)).trans (by rw [W5_arg11])
theorem W6_arg6 : W6 m ρ c (Proc.devRef .tc main_arg6) = m ((c : Thread nD τ).loc main_arg6) := (s5_keep_arg6 (W5 m ρ c)).trans (W5_arg6 m ρ c)
theorem W6_arg10 : W6 m ρ c (Proc.devRef .tc main_arg10) = m ((c : Thread nD τ).loc main_arg10) := (s5_keep_arg10 (W5 m ρ c)).trans (W5_arg10 m ρ c)

end Cert.Bridge.Host

end
-- ==== Proof.PredictorValue.lean ====
/-
  What the kernel's second region (the predictor, one grid point) leaves in its output array.

  Every window of the region has ONE block, its whole array (all index maps are constantly zero and each block has
  its array's shape). So the block each input window stages at the one point is the array as the region finds it,
  what the point writes back is the body's result of those whole arrays, and that one write-back covers the output
  array. The statement holds at any float instance and for any region-entry contents V.
-/
import proofs.«152564_j74612171866465_1_alg».proof.Proof.Gen.KernelIdeal.Frame
import Idealize.ShloMosaic.Lib.Pipeline.Value

set_option maxRecDepth 16384

noncomputable section

namespace Cert.Bridge.Predictor

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- Every index map of the region is constantly zero on both axes (decided over the one-point grid). -/
theorem idx_zero : ∀ t : Fin cfg1.N,
    (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- Window 0's one block is its whole array. -/
theorem read1_0 (t : Fin cfg1.N) (X : S1024x64.Idx → Elt F .f32) : ((cfg1.win 0).blk t).view.read (Elt F) X = X := by
  obtain ⟨e0, e1⟩ := (idx_zero t).1
  funext j
  show X (((cfg1.win 0).blk t).view.emb j) = X j
  refine congrArg X ?_
  funext a; apply Fin.ext
  match a with
  | ⟨0, _⟩ => show win1_0.index t (0 : Fin 2) * 1024 + 1 * (j 0).val = (j 0).val; omega
  | ⟨1, _⟩ => show win1_0.index t (1 : Fin 2) * 64 + 1 * (j 1).val = (j 1).val; omega
theorem iblk1_0_eq (c : Dev nD) (t : Fin cfg1.N) : iblk1 V c 0 t = V c main_v66 := by
  unfold iblk1; exact read1_0 t _

/-- Window 1's one block is its whole array. -/
theorem read1_1 (t : Fin cfg1.N) (X : S64x64.Idx → Elt F .f32) : ((cfg1.win 1).blk t).view.read (Elt F) X = X := by
  obtain ⟨e0, e1⟩ := (idx_zero t).2.1
  funext j
  show X (((cfg1.win 1).blk t).view.emb j) = X j
  refine congrArg X ?_
  funext a; apply Fin.ext
  match a with
  | ⟨0, _⟩ => show win1_1.index t (0 : Fin 2) * 64 + 1 * (j 0).val = (j 0).val; omega
  | ⟨1, _⟩ => show win1_1.index t (1 : Fin 2) * 64 + 1 * (j 1).val = (j 1).val; omega
theorem iblk1_1_eq (c : Dev nD) (t : Fin cfg1.N) : iblk1 V c 1 t = V c main_arg6 := by
  unfold iblk1; exact read1_1 t _

/-- Window 2's one block is its whole array. -/
theorem read1_2 (t : Fin cfg1.N) (X : S1x64.Idx → Elt F .f32) : ((cfg1.win 2).blk t).view.read (Elt F) X = X := by
  obtain ⟨e0, e1⟩ := (idx_zero t).2.2.1
  funext j
  show X (((cfg1.win 2).blk t).view.emb j) = X j
  refine congrArg X ?_
  funext a; apply Fin.ext
  match a with
  | ⟨0, _⟩ => show win1_2.index t (0 : Fin 2) * 1 + 1 * (j 0).val = (j 0).val; omega
  | ⟨1, _⟩ => show win1_2.index t (1 : Fin 2) * 64 + 1 * (j 1).val = (j 1).val; omega
theorem iblk1_2_eq (c : Dev nD) (t : Fin cfg1.N) : iblk1 V c 2 t = V c main_v67 := by
  unfold iblk1; exact read1_2 t _

/-- Window 3's one block is its whole array. -/
theorem read1_3 (t : Fin cfg1.N) (X : S1x64.Idx → Elt F .f32) : ((cfg1.win 3).blk t).view.read (Elt F) X = X := by
  obtain ⟨e0, e1⟩ := (idx_zero t).2.2.2.1
  funext j
  show X (((cfg1.win 3).blk t).view.emb j) = X j
  refine congrArg X ?_
  funext a; apply Fin.ext
  match a with
  | ⟨0, _⟩ => show win1_3.index t (0 : Fin 2) * 1 + 1 * (j 0).val = (j 0).val; omega
  | ⟨1, _⟩ => show win1_3.index t (1 : Fin 2) * 64 + 1 * (j 1).val = (j 1).val; omega
theorem iblk1_3_eq (c : Dev nD) (t : Fin cfg1.N) : iblk1 V c 3 t = V c main_v68 := by
  unfold iblk1; exact read1_3 t _

/-- Window 4's one block is its whole array. -/
theorem read1_4 (t : Fin cfg1.N) (X : S1x64.Idx → Elt F .f32) : ((cfg1.win 4).blk t).view.read (Elt F) X = X := by
  obtain ⟨e0, e1⟩ := (idx_zero t).2.2.2.2.1
  funext j
  show X (((cfg1.win 4).blk t).view.emb j) = X j
  refine congrArg X ?_
  funext a; apply Fin.ext
  match a with
  | ⟨0, _⟩ => show win1_4.index t (0 : Fin 2) * 1 + 1 * (j 0).val = (j 0).val; omega
  | ⟨1, _⟩ => show win1_4.index t (1 : Fin 2) * 64 + 1 * (j 1).val = (j 1).val; omega
theorem iblk1_4_eq (c : Dev nD) (t : Fin cfg1.N) : iblk1 V c 4 t = V c main_v69 := by
  unfold iblk1; exact read1_4 t _

/-- Window 5's one block is its whole array. -/
theorem read1_5 (t : Fin cfg1.N) (X : S64x1.Idx → Elt F .f32) : ((cfg1.win 5).blk t).view.read (Elt F) X = X := by
  obtain ⟨e0, e1⟩ := (idx_zero t).2.2.2.2.2.1
  funext j
  show X (((cfg1.win 5).blk t).view.emb j) = X j
  refine congrArg X ?_
  funext a; apply Fin.ext
  match a with
  | ⟨0, _⟩ => show win1_5.index t (0 : Fin 2) * 64 + 1 * (j 0).val = (j 0).val; omega
  | ⟨1, _⟩ => show win1_5.index t (1 : Fin 2) * 1 + 1 * (j 1).val = (j 1).val; omega
theorem iblk1_5_eq (c : Dev nD) (t : Fin cfg1.N) : iblk1 V c 5 t = V c main_arg10 := by
  unfold iblk1; exact read1_5 t _

/-- Window 6's one block is its whole array. -/
theorem read1_6 (t : Fin cfg1.N) (X : S1x1.Idx → Elt F .f32) : ((cfg1.win 6).blk t).view.read (Elt F) X = X := by
  obtain ⟨e0, e1⟩ := (idx_zero t).2.2.2.2.2.2.1
  funext j
  show X (((cfg1.win 6).blk t).view.emb j) = X j
  refine congrArg X ?_
  funext a; apply Fin.ext
  match a with
  | ⟨0, _⟩ => show win1_6.index t (0 : Fin 2) * 1 + 1 * (j 0).val = (j 0).val; omega
  | ⟨1, _⟩ => show win1_6.index t (1 : Fin 2) * 1 + 1 * (j 1).val = (j 1).val; omega
theorem iblk1_6_eq (c : Dev nD) (t : Fin cfg1.N) : iblk1 V c 6 t = V c main_v70 := by
  unfold iblk1; exact read1_6 t _

/-- Window 7's one block is its whole array. -/
theorem read1_7 (t : Fin cfg1.N) (X : S1024x1.Idx → Elt F .f32) : ((cfg1.win 7).blk t).view.read (Elt F) X = X := by
  obtain ⟨e0, e1⟩ := (idx_zero t).2.2.2.2.2.2.2
  funext j
  show X (((cfg1.win 7).blk t).view.emb j) = X j
  refine congrArg X ?_
  funext a; apply Fin.ext
  match a with
  | ⟨0, _⟩ => show win1_7.index t (0 : Fin 2) * 1024 + 1 * (j 0).val = (j 0).val; omega
  | ⟨1, _⟩ => show win1_7.index t (1 : Fin 2) * 1 + 1 * (j 1).val = (j 1).val; omega

/-- What the one point writes back: the body's result of the whole arrays the region finds. -/
theorem flushed_eq (c : Dev nD) (t : Fin cfg1.N) :
    (dat1 V c).flushed 7 t = ((cfg1.win 7).blk t).view.read (Elt F)
      (out1_7 (V c main_v66) (V c main_arg6) (V c main_v67) (V c main_v68) (V c main_v69) (V c main_arg10) (V c main_v70)) := by
  show (cfg1.win 7).cut (grid1.coords t) ((dat1 V c).after 7 t) = _
  rw [after1_7, read1_7, iblk1_0_eq, iblk1_1_eq, iblk1_2_eq, iblk1_3_eq, iblk1_4_eq, iblk1_5_eq, iblk1_6_eq]
  rfl

/-- Every index of the output array lies in the one point's block. -/
theorem covered (i : S1024x1.Idx) : ∃ t : Fin cfg1.N, (cfg1.win 7).flush t = true ∧ i ∈ ((cfg1.win 7).blk t).view.set := by
  refine ⟨t1_0, flush1_7 t1_0, ?_⟩
  obtain ⟨e0, e1⟩ := (idx_zero t1_0).2.2.2.2.2.2.2
  show i ∈ ((View.whole main_v71).slice (win1_7.rect t1_0)).set
  rw [View.set_slice_whole, Rect.mem_set_unit]
  intro a
  match a with
  | ⟨0, _⟩ =>
    show win1_7.index t1_0 (0 : Fin 2) * 1024 ≤ (i 0).val ∧ (i 0).val < win1_7.index t1_0 (0 : Fin 2) * 1024 + 1024
    have h : (i 0).val < 1024 := (i 0).isLt
    omega
  | ⟨1, _⟩ =>
    show win1_7.index t1_0 (1 : Fin 2) * 1 ≤ (i 1).val ∧ (i 1).val < win1_7.index t1_0 (1 : Fin 2) * 1 + 1
    have h : (i 1).val < 1 := (i 1).isLt
    omega

/-- The region's output array after the region: the body's result of the arrays the region is entered from. -/
theorem out_eq (c : Dev nD) :
    (dat1 V c).arrAt 7 cfg1.N
      = out1_7 (V c main_v66) (V c main_arg6) (V c main_v67) (V c main_v68) (V c main_v69) (V c main_arg10) (V c main_v70) :=
  (dat1 V c).arrAt_eq_of_cover 7 _ (fun t _ => flushed_eq V c t) covered

end Cert.Bridge.Predictor

end
-- ==== Proof.KernelValue.lean ====
/-
  The kernel program's result at the ideal values: the reference's last stage of the launch arguments.

  The run ends with the result buffer at the second region's output array after its one write-back. Reading
  backwards: that array is the predictor body's result of the arrays the region is entered from; those are the
  pooled array, the two weight arrays and the four reshaped row vectors, which the host operations between the
  regions make of the first region's output and the launch arguments; and the first region's output is the node
  projection full_x · W_enc. Two facts are taken as hypotheses here and supplied where the certificate is
  assembled: that the first region leaves the reference's projection stage in its output array (hxw), and that the
  predictor body's result of the reference's pooled stage is the reference's last stage (hmlp), the reshaped row
  vectors read at an index being the vectors themselves.
-/
import proofs.«152564_j74612171866465_1_alg».proof.Proof.HostChain
import proofs.«152564_j74612171866465_1_alg».proof.Proof.PredictorValue
import Idealize.ShloMosaic.Lib.ValueLayout

noncomputable section

namespace Cert.Bridge.Kernel

open Cert.KernelIdeal Cert.KernelIdeal.Gen
open Idealize.ShloMosaic Idealize.ShloMosaic.TcCoe Idealize.ShloMosaic.ValueIdx Idealize.SL.Sem
open Cert.ReferenceIdeal.ReadP (val_main_v30 val_main_v66 val_main_v100)

variable (m : (ℓ : Loc nD τ sig) → Buf (Elt Ideal) ℓ) (ρ : Dev nD → PrngReg) (c : Dev nD)

/-- The first region's output array at its exit, given the region's value lemma. -/
theorem W1_v0
    (hxw : ∀ (V : (c : Dev nD) → (b : Ref sig .tc) → Buf (Elt Ideal) ((c : Thread nD τ).loc b)) (c : Dev nD),
      (dat0 (F := Ideal) V c).arrAt 2 cfg0.N = val_main_v30 (F := Ideal) (V c main_arg0) (V c main_arg4)) :
    W1 m ρ c (Proc.devRef .tc main_v0) = val_main_v30 (F := Ideal) (m ((c : Thread nD τ).loc main_arg0)) (m ((c : Thread nD τ).loc main_arg4)) :=
  (W1_arr m ρ c 2).trans (hxw (V0 m ρ) c)

/-- THE RESULT: the second region's output array at the run's end is the reference's last stage of the launch
    arguments. -/
theorem result_eq
    (hxw : ∀ (V : (c : Dev nD) → (b : Ref sig .tc) → Buf (Elt Ideal) ((c : Thread nD τ).loc b)) (c : Dev nD),
      (dat0 (F := Ideal) V c).arrAt 2 cfg0.N = val_main_v30 (F := Ideal) (V c main_arg0) (V c main_arg4))
    (hmlp : ∀ (x0 : (⟨S100000x128, .f32⟩ : BufTy).Contents (Elt Ideal)) (x1 : (⟨S2x3200000, .i32⟩ : BufTy).Contents (Elt Ideal))
      (x2 x3 : (⟨S500000, .i32⟩ : BufTy).Contents (Elt Ideal)) (x4 : (⟨S128x64, .f32⟩ : BufTy).Contents (Elt Ideal))
      (x5 : (⟨S64, .f32⟩ : BufTy).Contents (Elt Ideal)) (x6 : (⟨S64x64, .f32⟩ : BufTy).Contents (Elt Ideal))
      (x7 x8 x9 : (⟨S64, .f32⟩ : BufTy).Contents (Elt Ideal)) (x10 : (⟨S64x1, .f32⟩ : BufTy).Contents (Elt Ideal))
      (x11 : (⟨S1, .f32⟩ : BufTy).Contents (Elt Ideal))
      (b1r gr br : Vec Ideal S1x64 .f32) (b2r : Vec Ideal S1x1 .f32),
      (∀ j : Fin 64, b1r (ix2 (0 : Fin 1) j) = x7 (ix1 j)) → (∀ j : Fin 64, gr (ix2 (0 : Fin 1) j) = x8 (ix1 j)) →
      (∀ j : Fin 64, br (ix2 (0 : Fin 1) j) = x9 (ix1 j)) → b2r (ix2 (0 : Fin 1) (0 : Fin 1)) = x11 (ix1 (0 : Fin 1)) →
      out1_7 (F := Ideal) (val_main_v66 (F := Ideal) x0 x1 x2 x3 x4 x5) x6 b1r gr br x10 b2r
        = val_main_v100 (F := Ideal) x0 x1 x2 x3 x4 x5 x6 x7 x8 x9 x10 x11) :
    W7 m ρ c (Proc.devRef .tc main_v71) = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have e66 := Cert.Bridge.Host.W6_v66 m ρ c (W1_v0 m ρ c hxw)
  have e6 := Cert.Bridge.Host.W6_arg6 m ρ c
  have e67 := Cert.Bridge.Host.W6_v67 m ρ c
  have e68 := Cert.Bridge.Host.W6_v68 m ρ c
  have e69 := Cert.Bridge.Host.W6_v69 m ρ c
  have e10 := Cert.Bridge.Host.W6_arg10 m ρ c
  have e70 := Cert.Bridge.Host.W6_v70 m ρ c
  refine (W7_arr m ρ c 7).trans ((Cert.Bridge.Predictor.out_eq (V6 m ρ) c).trans ?_)
  show out1_7 (F := Ideal) (W6 m ρ c (Proc.devRef .tc main_v66)) (W6 m ρ c (Proc.devRef .tc main_arg6))
      (W6 m ρ c (Proc.devRef .tc main_v67)) (W6 m ρ c (Proc.devRef .tc main_v68)) (W6 m ρ c (Proc.devRef .tc main_v69))
      (W6 m ρ c (Proc.devRef .tc main_arg10)) (W6 m ρ c (Proc.devRef .tc main_v70)) = _
  rw [e66, e6, e67, e68, e69, e10, e70]
  exact hmlp _ _ _ _ _ _ _ _ _ _ _ _ _ _ _ _
    (fun j => ValueIdx.shapeCast_a_1a_apply _ _ (0 : Fin 1) j)
    (fun j => ValueIdx.shapeCast_a_1a_apply _ _ (0 : Fin 1) j)
    (fun j => ValueIdx.shapeCast_a_1a_apply _ _ (0 : Fin 1) j)
    (ValueIdx.shapeCast_a_1a_apply _ _ (0 : Fin 1) (0 : Fin 1))

end Cert.Bridge.Kernel

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.XwValue.lean ====
/-
  The kernel's first region is a product of matrices taken one block of rows at a time. There are ten grid points;
  point `t` reads rows `t · 10000 … t · 10000 + 9999` of the `[100000,128]` left array and the whole `[128,64]`
  right array, and writes the same rows of the `[100000,64]` result. At the ideal values a change of float format is
  the identity and a product into the zero accumulator is the plain sum over the contracted axis. So what point `t`
  writes is the block of rows of ONE function of the two whole arrays — entry `(r, j)` is `∑ k, x (r, k) · w (k, j)` —,
  the ten blocks tile the result, and the array the region leaves is that function. The reference's `dot_general` of
  the two arrays is the same sum, entry by entry.
-/
import proofs.«152564_j74612171866465_1_alg».proof.Proof.Gen.KernelIdeal.Frame
import proofs.«152564_j74612171866465_1_alg».proof.Proof.RefReadP
import proofs.«152564_j74612171866465_1_alg».proof.Proof.LibDotFormats
import Idealize.ShloMosaic.Lib.Pipeline.Value
import Idealize.ShloMosaic.Lib.ValueIdx
import Idealize.ShloMosaic.PureOps.Ideal

noncomputable section

namespace Cert.Bridge.Xw

open Cert.KernelIdeal Idealize.ShloMosaic Idealize.ShloMosaic.TcCoe Idealize.ShloMosaic.ValueIdx Idealize.SL.Sem
open Idealize.ShloMosaic.Pipeline (Dat)
open scoped BigOperators

/-- The product of a `[100000,128]` array with a `[128,64]` array, entry by entry: row `r`, column `j` of the
    result is the sum over `k` of `x (r, k) · w (k, j)`. -/
def rowsByCols (x : (⟨2, ![100000, 128]⟩ : Shape).Idx → EReal) (w : (⟨2, ![128, 64]⟩ : Shape).Idx → EReal) :
    (⟨2, ![100000, 64]⟩ : Shape).Idx → EReal :=
  fun i => ∑ k : Fin 128, x (ix2 (i 0) k) * w (ix2 k (i 1))

theorem rowsByCols_apply (x : (⟨2, ![100000, 128]⟩ : Shape).Idx → EReal) (w : (⟨2, ![128, 64]⟩ : Shape).Idx → EReal)
    (r : Fin 100000) (j : Fin 64) : rowsByCols x w (ix2 r j) = ∑ k : Fin 128, x (ix2 r k) * w (ix2 k j) := rfl

/-- The reference's `dot_general` of the two whole arrays is that product. -/
theorem ref_eq (x : (⟨2, ![100000, 128]⟩ : Shape).Idx → EReal) (w : (⟨2, ![128, 64]⟩ : Shape).Idx → EReal) :
    Cert.ReferenceIdeal.ReadP.val_main_v30 (F := Ideal) x w = rowsByCols x w := by
  funext i
  rw [Cert.ReferenceIdeal.ReadP.val_main_v30_apply]
  refine Finset.sum_congr rfl fun k _ => ?_
  have el : Cert.ReferenceIdeal.ReadP.lidx_main_v30 i k = ix2 (i 0) k :=
    funext fun a => Fin.ext (by match a with | ⟨0, _⟩ => rfl | ⟨1, _⟩ => rfl)
  have er : Cert.ReferenceIdeal.ReadP.ridx_main_v30 i k = ix2 k (i 1) :=
    funext fun a => Fin.ext (by match a with | ⟨0, _⟩ => rfl | ⟨1, _⟩ => rfl)
  rw [el, er]
  rfl

/-- The body's stored value at row `p`, column `q` of a block. -/
theorem pay_apply (xb : Vec Ideal S10000x128 .f32) (wb : Vec Ideal S128x64 .f32) (p : Fin 10000) (q : Fin 64) :
    Gen.k0_pay1 (F := Ideal) xb wb (ix2 p q) = ∑ k : Fin 128, xb (ix2 p k) * wb (ix2 k q) := by
  unfold Gen.k0_pay1
  refine (Cert.LibDotFormats.matmul_cols_zero_apply (A := 10000) (K := 128) (B := 64) _ rfl rfl rfl rfl rfl rfl none _ _ p q).trans ?_
  rfl

/-! ## From the blocks of rows to the whole array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the ten grid points: the rows' blocks of the left operand and of the result are
    numbered by the point, on their one column block; the right operand has its one block at every point. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left operand's block at point `t` is row `t · 10000 + p` of the array. -/
theorem left_block_apply (c : Dev nD) (t : Fin cfg0.N) (y : S10000x128.Idx) (i : S100000x128.Idx)
    (h0 : (i 0).val = t.val * 10000 + (y 0).val) (h1 : (i 1).val = (y 1).val) :
    (Gen.iblk0 V c 0 t : Vec Ideal S10000x128 .f32) y = (V c main_arg0 : S100000x128.Idx → EReal) i := by
  obtain ⟨e0, e1, -⟩ := index_maps t
  unfold Gen.iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The right operand's block at every point is the whole array. -/
theorem right_block_apply (c : Dev nD) (t : Fin cfg0.N) (y : S128x64.Idx) :
    (Gen.iblk0 V c 1 t : Vec Ideal S128x64 .f32) y = (V c main_arg4 : S128x64.Idx → EReal) y := by
  obtain ⟨-, -, e0, e1, -⟩ := index_maps t
  unfold Gen.iblk0
  rw [View.read_apply]
  show V c main_arg4 _ = V c main_arg4 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

end Blocks

section Array

variable (V : (c : Dev nD) → (b : Ref sig .tc) → Buf (Elt Ideal) ((c : Thread nD τ).loc b))

/-- What point `t` writes back is the block of rows `t · 10000 … t · 10000 + 9999` of the product of the two whole
    arrays: entry `(p, q)` of the stored value sums over `k` the left block's `(p, k)`, which is the array's
    `(t · 10000 + p, k)`, times the right array's `(k, q)`. -/
theorem flushed_eq (c : Dev nD) (t : Fin cfg0.N) :
    (Gen.dat0 (F := Ideal) V c).flushed 2 t
      = ((cfg0.win 2).blk t).view.read (Elt Ideal) (rowsByCols (V c main_arg0) (V c main_arg4)) := by
  show (cfg0.win 2).cut (grid0.coords t) ((Gen.dat0 (F := Ideal) V c).after 2 t) = _
  rw [Gen.after0_2]
  unfold Gen.out0_2
  rw [View.canon_unit_zero zero_offsets]
  simp only [View.ld_unit_zero (S := S10000x128) zero_offsets, View.ld_unit_zero (S := S128x64) zero_offsets]
  obtain ⟨-, -, -, -, e0, e1⟩ := index_maps t
  have ht : t.val < 10 := lt_of_lt_of_eq t.isLt Gen.N_0
  funext j
  obtain ⟨p, q, rfl⟩ : ∃ (p : Fin 10000) (q : Fin 64), j = ix2 p q := ⟨j 0, j 1, eq_ix2 j⟩
  have hrow : t.val * 10000 + p.val < 100000 := by have := p.isLt; omega
  have hemb : ((cfg0.win 2).blk t).view.emb (ix2 p q)
      = (ix2 (⟨t.val * 10000 + p.val, hrow⟩ : Fin 100000) q : S100000x64.Idx) := by
    funext a; apply Fin.ext
    match a with
    | ⟨0, _⟩ => show win0_2.index t (0 : Fin 2) * 10000 + 1 * p.val = t.val * 10000 + p.val; rw [e0]; omega
    | ⟨1, _⟩ => show win0_2.index t (1 : Fin 2) * 64 + 1 * q.val = q.val; rw [e1]; omega
  show Gen.k0_pay1 (F := Ideal) (Gen.iblk0 V c 0 t) (Gen.iblk0 V c 1 t) (ix2 p q)
      = rowsByCols (V c main_arg0) (V c main_arg4) (((cfg0.win 2).blk t).view.emb (ix2 p q))
  rw [hemb]
  refine (pay_apply (Gen.iblk0 V c 0 t) (Gen.iblk0 V c 1 t) p q).trans ?_
  rw [rowsByCols_apply]
  refine Finset.sum_congr rfl fun k _ => ?_
  rw [left_block_apply V c t (ix2 p k) (ix2 ⟨t.val * 10000 + p.val, hrow⟩ k) rfl rfl, right_block_apply V c t (ix2 k q)]

/-- An index of the result array lies in point `t`'s block exactly when each coordinate lies in the block's range. -/
theorem mem_block (t : Fin cfg0.N) (i : S100000x64.Idx) :
    i ∈ ((cfg0.win 2).blk t).view.set
      ↔ ∀ a : Fin 2, win0_2.index t a * S10000x64.size a ≤ (i a).val
          ∧ (i a).val < win0_2.index t a * S10000x64.size a + S10000x64.size a := by
  show i ∈ ((View.whole main_v0).slice (win0_2.rect t)).set ↔ _
  rw [View.set_slice_whole, Rect.mem_set_unit]
  exact Iff.rfl

/-- Every row of the result is in some point's block: row `r` in that of point `r / 10000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, lt_of_lt_of_eq (by omega : (i 0).val / 10000 < 10) Gen.N_0.symm⟩, rfl⟩
  obtain ⟨-, -, -, -, e0, e1⟩ := index_maps t
  refine ⟨t, Gen.flush0_2 t, ?_⟩
  rw [mem_block]
  intro a
  match a with
  | ⟨0, _⟩ =>
    show win0_2.index t (0 : Fin 2) * 10000 ≤ (i 0).val ∧ (i 0).val < win0_2.index t (0 : Fin 2) * 10000 + 10000
    rw [e0, ht]; omega
  | ⟨1, _⟩ =>
    show win0_2.index t (1 : Fin 2) * 64 ≤ (i 1).val ∧ (i 1).val < win0_2.index t (1 : Fin 2) * 64 + 64
    rw [e1]; omega

end Array

/-- The first region leaves in its output array the product of the two whole arrays, which is the reference's
    `dot_general` of them. -/
theorem xw_eq (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Gen.dat0 (F := Ideal) V c).arrAt 2 Cert.KernelIdeal.cfg0.N
      = Cert.ReferenceIdeal.ReadP.val_main_v30 (F := Ideal) (V c Cert.KernelIdeal.main_arg0) (V c Cert.KernelIdeal.main_arg4) := by
  rw [ref_eq]
  exact (Gen.dat0 (F := Ideal) V c).arrAt_eq_of_cover 2 (rowsByCols (V c main_arg0) (V c main_arg4))
    (fun t _ => flushed_eq V c t) covered

end Cert.Bridge.Xw

end
-- ==== Proof.MlpBridge.lean ====
/-
  The predictor MLP of the second kernel region against the reference's closing operations.

  Both sides start from the pooled array p of shape [1024, 64] and compute, with every operation exact,
    z  (r, j) = max (∑ k, p (r, k) · W1 (k, j) + b1 j, 0)
    mu j      = (∑ r, z (r, j)) / 1024
    var j     = (∑ r, (z (r, j) − mu j)²) / 1024
    zn (r, j) = (z (r, j) − mu j) · rsqrt (var j + eps) · gamma j + beta j
    out r     = ∑ k, zn (r, k) · W2 (k, 0) + b2.
  The kernel keeps the per-column quantities as rows of shape [1, 64] and spreads them over the 1024 rows;
  the reference keeps them as vectors of length 64 and spreads them in two steps ([64] → [1, 64] → [1024, 64]).
  A change of float format is the identity on the extended reals, a product into the zero accumulator is the
  plain sum over the contracted axis, and a column sum is the sum over the 1024 row coordinates on both sides
  (the reference's starts from the zero initial value). So the two sides agree entry by entry with the
  operations in the same order; no algebraic law is used beyond 0 + x = x, and no finiteness.

  The file is cut along the five stages: each kernel stage is a function of the stage before it, read at an
  entry; each reference stage is read at an entry through its operations; the stages are then joined in order.
-/
import proofs.«152564_j74612171866465_1_alg».proof.Proof.Gen.KernelIdeal.Frame
import proofs.«152564_j74612171866465_1_alg».proof.Proof.RefReadP
import proofs.«152564_j74612171866465_1_alg».proof.Proof.LibDotFormats
import Idealize.ShloMosaic.Lib.Pipeline.Value
import Idealize.ShloMosaic.Lib.ValueIdx
import Idealize.ShloMosaic.Lib.ValueLayout
import Idealize.ShloMosaic.PureOps.Ideal.Laws

noncomputable section

namespace Cert.Bridge.Mlp

open Idealize.ShloMosaic
open Idealize.ShloMosaic.ValueIdx (ix1 ix2)
open Cert.ReferenceIdeal.ReadP
open scoped BigOperators

/-! ## The kernel's stages -/

section Kernel

open Cert.KernelIdeal (S1024x64 S64x64 S1x64 S64x1 S1x1 S1024x1 S64)
open Cert.KernelIdeal (dot_S1024x64_S64x64_S1024x64_1_0_0_1_n_n dot_S1024x64_S64x1_S1024x1_1_0_0_1_n_n)
open Cert.KernelIdeal.Facts₀

/-- The hidden layer: the product of the pooled rows with the first weight matrix, plus the bias row spread over
    the rows, cut below at zero. -/
def hidden (p : FVec Ideal S1024x64 .f32) (w1 : FVec Ideal S64x64 .f32) (b1r : FVec Ideal S1x64 .f32) :
    FVec Ideal S1024x64 .f32 :=
  maximumf
    (addf
      (matmul dot_S1024x64_S64x64_S1024x64_1_0_0_1_n_n none
        (truncf .bf16 (shapeCast S1024x64 p shapeCasts_S1024x64_S1024x64) bitsLt_bf16_f32)
        (truncf .bf16 w1 bitsLt_bf16_f32) (constant S1024x64 .f32 0x00000000#32))
      (broadcastTo S1024x64 (shapeCast S1x64 b1r shapeCasts_S1x64_S1x64) broadcasts_S1x64_S1024x64))
    (broadcast S1024x64 (Scalar.ofBits .f32 0x00000000#32))

/-- The mean of each column over the 1024 rows, kept as a row. -/
def colMean (z : FVec Ideal S1024x64 .f32) : FVec Ideal S1x64 .f32 :=
  divf
    (shapeCast S1x64 (multiReduction .add [0] S64 z 0x00000000#32 reduces_S1024x64_S64 (.inl rfl) rfl)
      shapeCasts_S64_S1x64)
    (broadcast S1x64 (Scalar.ofBits .f32 0x44800000#32))

/-- Each entry less its column's row entry. -/
def centered (z : FVec Ideal S1024x64 .f32) (mu : FVec Ideal S1x64 .f32) : FVec Ideal S1024x64 .f32 :=
  subf z (broadcastTo S1024x64 mu broadcasts_S1x64_S1024x64)

/-- The mean of the squared centered entries of each column, kept as a row. -/
def colVar (z : FVec Ideal S1024x64 .f32) (mu : FVec Ideal S1x64 .f32) : FVec Ideal S1x64 .f32 :=
  colMean (mulf (centered z mu) (centered z mu))

/-- The normalized hidden layer: centered, scaled by the reciprocal root of the shifted variance, then by the
    gain row, plus the offset row. -/
def normalized (z : FVec Ideal S1024x64 .f32) (mu var gr br : FVec Ideal S1x64 .f32) : FVec Ideal S1024x64 .f32 :=
  addf
    (mulf
      (mulf (centered z mu)
        (broadcastTo S1024x64 (rsqrt (addf var (broadcast S1x64 (Scalar.ofBits .f32 0x3727C5AC#32))))
          broadcasts_S1x64_S1024x64))
      (broadcastTo S1024x64 (shapeCast S1x64 gr shapeCasts_S1x64_S1x64) broadcasts_S1x64_S1024x64))
    (broadcastTo S1024x64 (shapeCast S1x64 br shapeCasts_S1x64_S1x64) broadcasts_S1x64_S1024x64)

/-- The output column: the product with the second weight column plus the one bias entry spread over the rows. -/
def readout (zn : FVec Ideal S1024x64 .f32) (w2 : FVec Ideal S64x1 .f32) (b2r : FVec Ideal S1x1 .f32) :
    FVec Ideal S1024x1 .f32 :=
  addf
    (matmul dot_S1024x64_S64x1_S1024x1_1_0_0_1_n_n none (truncf .bf16 zn bitsLt_bf16_f32)
      (truncf .bf16 w2 bitsLt_bf16_f32) (constant S1024x1 .f32 0x00000000#32))
    (broadcastTo S1024x1 (shapeCast S1x1 b2r shapeCasts_S1x1_S1x1) broadcasts_S1x1_S1024x1)

/-- The body's two payloads are the five stages, composed. -/
theorem pay_eq (p : FVec Ideal S1024x64 .f32) (w1 : FVec Ideal S64x64 .f32) (b1r gr br : FVec Ideal S1x64 .f32)
    (w2 : FVec Ideal S64x1 .f32) (b2r : FVec Ideal S1x1 .f32) :
    Cert.KernelIdeal.Gen.k1_pay1 (F := Ideal) (Cert.KernelIdeal.Gen.k1_pay2 (F := Ideal) p w1 b1r gr br) w2 b2r
      = readout
          (normalized (hidden p w1 b1r) (colMean (hidden p w1 b1r))
            (colVar (hidden p w1 b1r) (colMean (hidden p w1 b1r))) gr br)
          w2 b2r := rfl

theorem zeros2 : (![0, 0] : Fin 2 → Nat) = fun _ => 0 :=
  funext fun a => by match a with | ⟨0, _⟩ => rfl | ⟨1, _⟩ => rfl

/-- The staging buffer of the output after the body is the last payload of the loaded blocks: the one store covers
    the whole buffer and every load reads a whole block. -/
theorem out_eq_pay (p : FVec Ideal S1024x64 .f32) (w1 : FVec Ideal S64x64 .f32) (b1r gr br : FVec Ideal S1x64 .f32)
    (w2 : FVec Ideal S64x1 .f32) (b2r : FVec Ideal S1x1 .f32) :
    Cert.KernelIdeal.Gen.out1_7 (F := Ideal) p w1 b1r gr br w2 b2r
      = Cert.KernelIdeal.Gen.k1_pay1 (F := Ideal) (Cert.KernelIdeal.Gen.k1_pay2 (F := Ideal) p w1 b1r gr br) w2 b2r := by
  unfold Cert.KernelIdeal.Gen.out1_7
  rw [View.canon_unit_zero zeros2]
  simp only [View.ld_unit_zero (S := S1024x64) zeros2, View.ld_unit_zero (S := S64x64) zeros2,
    View.ld_unit_zero (S := S1x64) zeros2, View.ld_unit_zero (S := S64x1) zeros2,
    View.ld_unit_zero (S := S1x1) zeros2]

/-- A row, cast to its own shape and spread over the 1024 rows, reads its entry of the column. -/
theorem row_spread (v : FVec Ideal S1x64 .f32) (r : Fin 1024) (j : Fin 64) :
    broadcastTo S1024x64 (shapeCast S1x64 v shapeCasts_S1x64_S1x64) broadcasts_S1x64_S1024x64 (ix2 r j)
      = v (ix2 (0 : Fin 1) j) := by
  rw [ValueIdx.broadcastTo_1b_ab_apply, shapeCast_self]

theorem hidden_apply (p : FVec Ideal S1024x64 .f32) (w1 : FVec Ideal S64x64 .f32) (b1r : FVec Ideal S1x64 .f32)
    (r : Fin 1024) (j : Fin 64) :
    hidden p w1 b1r (ix2 r j)
      = max ((∑ k : Fin 64, p (ix2 r k) * w1 (ix2 k j)) + b1r (ix2 (0 : Fin 1) j)) (Ideal.ofBits .f32 0x00000000#32) := by
  unfold hidden
  rw [ValueIdx.maximumf_apply, ValueIdx.addf_apply, ValueIdx.broadcast_apply, row_spread]
  refine congrArg₂ max (congrArg (· + _) ?_) rfl
  refine (Cert.LibDotFormats.matmul_cols_zero_apply dot_S1024x64_S64x64_S1024x64_1_0_0_1_n_n rfl rfl rfl rfl rfl rfl
    none _ _ r j).trans ?_
  refine Finset.sum_congr rfl fun k _ => ?_
  rw [ValueIdx.truncf_apply, ValueIdx.truncf_apply, shapeCast_self]

theorem colMean_apply (z : FVec Ideal S1024x64 .f32) (j : Fin 64) :
    colMean z (ix2 (0 : Fin 1) j) = Ideal.div (∑ r : Fin 1024, z (ix2 r j)) (Ideal.ofBits .f32 0x44800000#32) := by
  unfold colMean
  rw [ValueIdx.divf_apply, ValueIdx.broadcast_apply, ValueIdx.shapeCast_a_1a_apply]
  refine congrArg₂ Ideal.div ?_ rfl
  refine (Ideal.multiReduction_add_single z 0x00000000#32 reduces_S1024x64_S64 (.inl rfl) rfl (ix1 j)).trans ?_
  refine Finset.sum_congr rfl fun k _ => congrArg z ?_
  funext a
  apply Fin.ext
  match a with
  | ⟨0, _⟩ => rfl
  | ⟨1, _⟩ => rfl

theorem centered_apply (z : FVec Ideal S1024x64 .f32) (mu : FVec Ideal S1x64 .f32) (r : Fin 1024) (j : Fin 64) :
    centered z mu (ix2 r j) = z (ix2 r j) - mu (ix2 (0 : Fin 1) j) := by
  unfold centered
  rw [ValueIdx.subf_apply, ValueIdx.broadcastTo_1b_ab_apply]

theorem colVar_apply (z : FVec Ideal S1024x64 .f32) (mu : FVec Ideal S1x64 .f32) (j : Fin 64) :
    colVar z mu (ix2 (0 : Fin 1) j)
      = Ideal.div (∑ r : Fin 1024, (z (ix2 r j) - mu (ix2 (0 : Fin 1) j)) * (z (ix2 r j) - mu (ix2 (0 : Fin 1) j)))
          (Ideal.ofBits .f32 0x44800000#32) := by
  unfold colVar
  rw [colMean_apply]
  refine congrArg₂ Ideal.div (Finset.sum_congr rfl fun r _ => ?_) rfl
  rw [ValueIdx.mulf_apply, centered_apply]

theorem normalized_apply (z : FVec Ideal S1024x64 .f32) (mu var gr br : FVec Ideal S1x64 .f32) (r : Fin 1024) (j : Fin 64) :
    normalized z mu var gr br (ix2 r j)
      = (z (ix2 r j) - mu (ix2 (0 : Fin 1) j))
          * Ideal.rsqrt (var (ix2 (0 : Fin 1) j) + Ideal.ofBits .f32 0x3727C5AC#32)
          * gr (ix2 (0 : Fin 1) j) + br (ix2 (0 : Fin 1) j) := by
  unfold normalized
  rw [ValueIdx.addf_apply, ValueIdx.mulf_apply, ValueIdx.mulf_apply, centered_apply, row_spread, row_spread,
    ValueIdx.broadcastTo_1b_ab_apply]
  rfl

theorem readout_apply (zn : FVec Ideal S1024x64 .f32) (w2 : FVec Ideal S64x1 .f32) (b2r : FVec Ideal S1x1 .f32)
    (r : Fin 1024) (q : Fin 1) :
    readout zn w2 b2r (ix2 r q) = (∑ k : Fin 64, zn (ix2 r k) * w2 (ix2 k q)) + b2r (ix2 (0 : Fin 1) q) := by
  unfold readout
  rw [ValueIdx.addf_apply, ValueIdx.broadcastTo_1b_ab_apply, shapeCast_self]
  refine congrArg (· + _) ?_
  refine (Cert.LibDotFormats.matmul_cols_zero_apply dot_S1024x64_S64x1_S1024x1_1_0_0_1_n_n rfl rfl rfl rfl rfl rfl
    none _ _ r q).trans ?_
  refine Finset.sum_congr rfl fun k _ => ?_
  rw [ValueIdx.truncf_apply, ValueIdx.truncf_apply]

end Kernel

/-! ## The reference's stages -/

section Reference

open Cert.ReferenceIdeal (S100000x128 S2x3200000 S500000 S128x64 S64 S64x64 S64x1 S1 S1024x64 S1x64 S1024x1 S1x1)

/-! The index maps of the reference's operations, at an entry given by its coordinates. -/

theorem lidx67 (r : Fin 1024) (j k : Fin 64) : lidx_main_v67 (ix2 r j) k = ix2 r k :=
  funext fun a => Fin.ext (by match a with | ⟨0, _⟩ => rfl | ⟨1, _⟩ => rfl)
theorem ridx67 (r : Fin 1024) (j k : Fin 64) : ridx_main_v67 (ix2 r j) k = ix2 k j :=
  funext fun a => Fin.ext (by match a with | ⟨0, _⟩ => rfl | ⟨1, _⟩ => rfl)
theorem idx6869 (r : Fin 1024) (j : Fin 64) : idx_main_v68 (idx_main_v69 (ix2 r j)) = ix1 j :=
  funext fun a => Fin.ext (by match a with | ⟨0, _⟩ => rfl)
theorem idx72 (j : Fin 64) (k : Fin 1024) : idx_main_v72 (ix1 j) k = ix2 k j :=
  funext fun a => Fin.ext (by match a with | ⟨0, _⟩ => rfl | ⟨1, _⟩ => rfl)
theorem idx7576 (r : Fin 1024) (j : Fin 64) : idx_main_v75 (idx_main_v76 (ix2 r j)) = ix1 j :=
  funext fun a => Fin.ext (by match a with | ⟨0, _⟩ => rfl)
theorem idx79 (j : Fin 64) (k : Fin 1024) : idx_main_v79 (ix1 j) k = ix2 k j :=
  funext fun a => Fin.ext (by match a with | ⟨0, _⟩ => rfl | ⟨1, _⟩ => rfl)
theorem idx8283 (r : Fin 1024) (j : Fin 64) : idx_main_v82 (idx_main_v83 (ix2 r j)) = ix1 j :=
  funext fun a => Fin.ext (by match a with | ⟨0, _⟩ => rfl)
theorem idx8889 (r : Fin 1024) (j : Fin 64) : idx_main_v88 (idx_main_v89 (ix2 r j)) = ix1 j :=
  funext fun a => Fin.ext (by match a with | ⟨0, _⟩ => rfl)
theorem idx9192 (r : Fin 1024) (j : Fin 64) : idx_main_v91 (idx_main_v92 (ix2 r j)) = ix1 j :=
  funext fun a => Fin.ext (by match a with | ⟨0, _⟩ => rfl)
theorem idx9495 (r : Fin 1024) (j : Fin 64) : idx_main_v94 (idx_main_v95 (ix2 r j)) = ix1 j :=
  funext fun a => Fin.ext (by match a with | ⟨0, _⟩ => rfl)
theorem lidx97 (r : Fin 1024) (q : Fin 1) (k : Fin 64) : lidx_main_v97 (ix2 r q) k = ix2 r k :=
  funext fun a => Fin.ext (by match a with | ⟨0, _⟩ => rfl | ⟨1, _⟩ => rfl)
theorem ridx97 (r : Fin 1024) (q : Fin 1) (k : Fin 64) : ridx_main_v97 (ix2 r q) k = ix2 k q :=
  funext fun a => Fin.ext (by match a with | ⟨0, _⟩ => rfl | ⟨1, _⟩ => rfl)
theorem idx9899 (r : Fin 1024) (q : Fin 1) : idx_main_v98 (idx_main_v99 (ix2 r q)) = ix1 (0 : Fin 1) :=
  funext fun a => Fin.ext (by match a with | ⟨0, _⟩ => rfl)

variable (x0 : (⟨S100000x128, .f32⟩ : BufTy).Contents (Elt Ideal)) (x1 : (⟨S2x3200000, .i32⟩ : BufTy).Contents (Elt Ideal))
  (x2 x3 : (⟨S500000, .i32⟩ : BufTy).Contents (Elt Ideal)) (x4 : (⟨S128x64, .f32⟩ : BufTy).Contents (Elt Ideal))
  (x5 : (⟨S64, .f32⟩ : BufTy).Contents (Elt Ideal)) (x6 : (⟨S64x64, .f32⟩ : BufTy).Contents (Elt Ideal))
  (x7 x8 x9 : (⟨S64, .f32⟩ : BufTy).Contents (Elt Ideal)) (x10 : (⟨S64x1, .f32⟩ : BufTy).Contents (Elt Ideal))
  (x11 : (⟨S1, .f32⟩ : BufTy).Contents (Elt Ideal))

/-- The hidden layer of the reference at an entry. -/
theorem ref_hidden (r : Fin 1024) (j : Fin 64) :
    val_main_v71 (F := Ideal) x0 x1 x2 x3 x4 x5 x6 x7 (ix2 r j)
      = max ((∑ k : Fin 64, val_main_v66 (F := Ideal) x0 x1 x2 x3 x4 x5 (ix2 r k) * x6 (ix2 k j)) + x7 (ix1 j))
          (Ideal.ofBits .f32 0x00000000#32) := by
  rw [val_main_v71_apply, val_main_v70_apply, val_main_v67_apply, val_main_v69_apply, val_main_v68_apply,
    val_main_call2_v0_apply, val_main_call2_cst_apply]
  simp only [lidx67, ridx67, idx6869]
  rfl

/-- The column means of the reference: the zero initial value drops out of the sum. -/
theorem ref_mean (j : Fin 64) :
    val_main_v74 (F := Ideal) x0 x1 x2 x3 x4 x5 x6 x7 (ix1 j)
      = Ideal.div (∑ r : Fin 1024, val_main_v71 (F := Ideal) x0 x1 x2 x3 x4 x5 x6 x7 (ix2 r j))
          (Ideal.ofBits .f32 0x44800000#32) := by
  rw [val_main_v74_apply, val_main_v72_apply, val_main_v73_apply, val_main_cst_16_apply, val_main_cst_15_apply]
  simp only [idx72]
  show Ideal.div (Ideal.ofBits .f32 0x00000000#32 + _) _ = _
  rw [Ideal.ofBits_zero_f32, zero_add]
  rfl

/-- The column variances of the reference. -/
theorem ref_var (j : Fin 64) :
    val_main_v81 (F := Ideal) x0 x1 x2 x3 x4 x5 x6 x7 (ix1 j)
      = Ideal.div
          (∑ r : Fin 1024,
            (val_main_v71 (F := Ideal) x0 x1 x2 x3 x4 x5 x6 x7 (ix2 r j) - val_main_v74 (F := Ideal) x0 x1 x2 x3 x4 x5 x6 x7 (ix1 j))
              * (val_main_v71 (F := Ideal) x0 x1 x2 x3 x4 x5 x6 x7 (ix2 r j) - val_main_v74 (F := Ideal) x0 x1 x2 x3 x4 x5 x6 x7 (ix1 j)))
          (Ideal.ofBits .f32 0x44800000#32) := by
  rw [val_main_v81_apply, val_main_v79_apply, val_main_v80_apply, val_main_cst_18_apply, val_main_cst_17_apply]
  simp only [val_main_v78_apply, val_main_v77_apply, val_main_v76_apply, val_main_v75_apply, idx79, idx7576]
  show Ideal.div (Ideal.ofBits .f32 0x00000000#32 + _) _ = _
  rw [Ideal.ofBits_zero_f32, zero_add]
  rfl

/-- The normalized hidden layer of the reference at an entry. -/
theorem ref_norm (r : Fin 1024) (j : Fin 64) :
    val_main_v96 (F := Ideal) x0 x1 x2 x3 x4 x5 x6 x7 x8 x9 (ix2 r j)
      = (val_main_v71 (F := Ideal) x0 x1 x2 x3 x4 x5 x6 x7 (ix2 r j) - val_main_v74 (F := Ideal) x0 x1 x2 x3 x4 x5 x6 x7 (ix1 j))
          * Ideal.rsqrt (val_main_v81 (F := Ideal) x0 x1 x2 x3 x4 x5 x6 x7 (ix1 j) + Ideal.ofBits .f32 0x3727C5AC#32)
          * x8 (ix1 j) + x9 (ix1 j) := by
  rw [val_main_v96_apply, val_main_v93_apply, val_main_v90_apply, val_main_v84_apply, val_main_v83_apply,
    val_main_v82_apply, val_main_v89_apply, val_main_v88_apply, val_main_v87_apply, val_main_v86_apply,
    val_main_v85_apply, val_main_cst_19_apply, val_main_v92_apply, val_main_v91_apply, val_main_v95_apply,
    val_main_v94_apply]
  simp only [idx8283, idx8889, idx9192, idx9495]
  rfl

/-- The reference's result at an entry. -/
theorem ref_out (r : Fin 1024) (q : Fin 1) :
    val_main_v100 (F := Ideal) x0 x1 x2 x3 x4 x5 x6 x7 x8 x9 x10 x11 (ix2 r q)
      = (∑ k : Fin 64, val_main_v96 (F := Ideal) x0 x1 x2 x3 x4 x5 x6 x7 x8 x9 (ix2 r k) * x10 (ix2 k q))
          + x11 (ix1 (0 : Fin 1)) := by
  rw [val_main_v100_apply, val_main_v97_apply, val_main_v99_apply, val_main_v98_apply]
  simp only [lidx97, ridx97, idx9899]
  rfl

end Reference

/-! ## The two sides joined, stage by stage -/

/-- The body's output buffer, run on the pooled array with the weights and the reshaped bias, gain and offset rows,
    is the reference's result. -/
theorem out1_7_eq
    (x0 : (⟨Cert.ReferenceIdeal.S100000x128, .f32⟩ : BufTy).Contents (Elt Ideal))
    (x1 : (⟨Cert.ReferenceIdeal.S2x3200000, .i32⟩ : BufTy).Contents (Elt Ideal))
    (x2 x3 : (⟨Cert.ReferenceIdeal.S500000, .i32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 x8 x9 : (⟨Cert.ReferenceIdeal.S64, .f32⟩ : BufTy).Contents (Elt Ideal))
    (x10 : (⟨Cert.ReferenceIdeal.S64x1, .f32⟩ : BufTy).Contents (Elt Ideal))
    (x11 : (⟨Cert.ReferenceIdeal.S1, .f32⟩ : BufTy).Contents (Elt Ideal))
    (b1r gr br : Vec Ideal Cert.KernelIdeal.S1x64 .f32) (b2r : Vec Ideal Cert.KernelIdeal.S1x1 .f32)
    (hb1 : ∀ j : Fin 64, b1r (ix2 (0 : Fin 1) j) = x7 (ix1 j))
    (hg : ∀ j : Fin 64, gr (ix2 (0 : Fin 1) j) = x8 (ix1 j))
    (hb : ∀ j : Fin 64, br (ix2 (0 : Fin 1) j) = x9 (ix1 j))
    (hb2 : b2r (ix2 (0 : Fin 1) (0 : Fin 1)) = x11 (ix1 (0 : Fin 1))) :
    Cert.KernelIdeal.Gen.out1_7 (F := Ideal) (val_main_v66 (F := Ideal) x0 x1 x2 x3 x4 x5) x6 b1r gr br x10 b2r
      = val_main_v100 (F := Ideal) x0 x1 x2 x3 x4 x5 x6 x7 x8 x9 x10 x11 := by
  rw [out_eq_pay, pay_eq]
  -- the hidden layers agree
  have hZ : hidden (val_main_v66 (F := Ideal) x0 x1 x2 x3 x4 x5) x6 b1r
      = val_main_v71 (F := Ideal) x0 x1 x2 x3 x4 x5 x6 x7 := by
    funext i
    obtain ⟨r, j, rfl⟩ : ∃ (r : Fin 1024) (j : Fin 64), i = ix2 r j := ⟨i 0, i 1, ValueIdx.eq_ix2 i⟩
    rw [hidden_apply, ref_hidden, hb1]
  rw [hZ]
  -- so do the column means and variances, a row on one side and a vector on the other
  have hMu : ∀ j : Fin 64, colMean (val_main_v71 (F := Ideal) x0 x1 x2 x3 x4 x5 x6 x7) (ix2 (0 : Fin 1) j)
      = val_main_v74 (F := Ideal) x0 x1 x2 x3 x4 x5 x6 x7 (ix1 j) := fun j => by
    rw [colMean_apply, ref_mean]
  have hVar : ∀ j : Fin 64,
      colVar (val_main_v71 (F := Ideal) x0 x1 x2 x3 x4 x5 x6 x7)
          (colMean (val_main_v71 (F := Ideal) x0 x1 x2 x3 x4 x5 x6 x7)) (ix2 (0 : Fin 1) j)
        = val_main_v81 (F := Ideal) x0 x1 x2 x3 x4 x5 x6 x7 (ix1 j) := fun j => by
    rw [colVar_apply, ref_var, hMu]
  -- and the normalized layers
  have hZn : normalized (val_main_v71 (F := Ideal) x0 x1 x2 x3 x4 x5 x6 x7)
        (colMean (val_main_v71 (F := Ideal) x0 x1 x2 x3 x4 x5 x6 x7))
        (colVar (val_main_v71 (F := Ideal) x0 x1 x2 x3 x4 x5 x6 x7)
          (colMean (val_main_v71 (F := Ideal) x0 x1 x2 x3 x4 x5 x6 x7))) gr br
      = val_main_v96 (F := Ideal) x0 x1 x2 x3 x4 x5 x6 x7 x8 x9 := by
    funext i
    obtain ⟨r, j, rfl⟩ : ∃ (r : Fin 1024) (j : Fin 64), i = ix2 r j := ⟨i 0, i 1, ValueIdx.eq_ix2 i⟩
    rw [normalized_apply, ref_norm, hMu, hVar, hg, hb]
  rw [hZn]
  -- the output column
  funext i
  obtain ⟨r, q, rfl⟩ : ∃ (r : Fin 1024) (q : Fin 1), i = ix2 r q := ⟨i 0, i 1, ValueIdx.eq_ix2 i⟩
  obtain rfl : q = 0 := Subsingleton.elim _ _
  rw [readout_apply, ref_out, hb2]

end Cert.Bridge.Mlp

end
-- ==== Proof.lean ====
/-
  A graph-convolution encoder with a pooled predictor, as a two-region Pallas kernel, against its jnp reference,
  over the extended reals.

  Both programs compute out = MLP(pool(relu(GCN(full_x · W_enc)))): the node projection xw = full_x · W_enc
  ([100000,128] by [128,64]); the symmetric-normalised aggregation over the edges and self loops (degrees by a
  scatter-add of ones, dinv = rsqrt(deg) where deg > 0, messages xw[source] · dinv[source] · dinv[target] summed into
  their targets, plus the bias), relu, the gather of the sub-graph's nodes and the segment mean over the graphs
  (pooled, [1024,64]); then z = relu(pooled · W1 + b1), batch statistics mu and var over the 1024 rows,
  zn = (z − mu) · rsqrt(var + 1e-5) · gamma + beta, out = zn · W2 + b2.
  The kernel does the projection in a first region (ten row blocks of 10000, each a matrix product into a zero
  accumulator) and the predictor in a second (one grid point, every block a whole array); everything between is the
  SAME host operations in both programs. At the ideal values a change of float format is the identity, a product
  into a zero accumulator and a dot_general are both the plain sum over the contracted index, and a lane reduction
  and a host reduction are both the plain sum, so the two programs agree operation by operation: no algebraic law
  joins them and finiteness of the inputs is not used. The integer inputs (edges, node and graph indices) go through
  the same gathers and scatters on both sides and are never looked into.
  The pieces: the first region's output array is the reference's projection stage (XwValue); the host operations
  between the regions, read stretch by stretch, turn it into the reference's pooled stage (HostStretch, HostChain);
  the second region's output array is its body's result of the arrays it is entered from (PredictorValue), which
  index by index is the reference's last stage (MlpBridge); KernelValue chains them, and the kernel's run names its
  result buffer (KernelRunP). The ideal pass rewrote nothing, so the idealization claim is trivial.
-/
import proofs.«152564_j74612171866465_1_alg».proof.Defs
import proofs.«152564_j74612171866465_1_alg».proof.Proof.Gen.Kernel
import proofs.«152564_j74612171866465_1_alg».proof.Proof.Gen.Kernel.Frame
import proofs.«152564_j74612171866465_1_alg».proof.Proof.Gen.KernelIdeal
import proofs.«152564_j74612171866465_1_alg».proof.Proof.Gen.KernelIdeal.Frame
import proofs.«152564_j74612171866465_1_alg».proof.Proof.Gen.ReferenceIdeal
import proofs.«152564_j74612171866465_1_alg».proof.Proof.Gen.Pre_finite_inputs
import proofs.«152564_j74612171866465_1_alg».proof.Proof.RefReadP
import proofs.«152564_j74612171866465_1_alg».proof.Proof.KernelRunP
import proofs.«152564_j74612171866465_1_alg».proof.Proof.KernelValue
import proofs.«152564_j74612171866465_1_alg».proof.Proof.XwValue
import proofs.«152564_j74612171866465_1_alg».proof.Proof.MlpBridge
import Idealize.ShloMosaic.Adequacy
import Idealize.ShloMosaic.Init

noncomputable section

namespace Cert.Proof

open Idealize.ShloMosaic Idealize.SL.Sem

/-- The kernel as printed runs and keeps its arguments: the generated frame of its two regions. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing in this kernel. -/
theorem preserves : Cert.preserves_Kernel_KernelIdeal := trivial

/-- Both programs end with the reference's last stage of the arguments in their result: the kernel by the chain
    projection → aggregation and pool → predictor read off its run, the reference by its own run; the
    arguments agree by hypothesis. -/
theorem algebraic : Cert.algebraic_KernelIdeal_ReferenceIdeal := by
  intro m ρ m' ρ' _ hagree
  refine ⟨fun c => Cert.ReferenceIdeal.ReadP.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Bridge.Kernel.result_eq m ρ c Cert.Bridge.Xw.xw_eq Cert.Bridge.Mlp.out1_7_eq), (h c).2⟩)
      (Cert.KernelIdeal.GenP.run_result (F := Ideal) m ρ)
  · refine (θ_run Cert.ReferenceIdeal.defs _ _).mono (fun r h c => ⟨?_, (h c).2⟩)
      (Cert.ReferenceIdeal.ValueP.run (F := Ideal) m' ρ')
    obtain ⟨a0, a1, a2, a3, a4, a5, a6, a7, a8, a9, a10, a11⟩ := hagree c
    rw [(h c).1, Cert.ReferenceIdeal.ReadP.val_main_v100_eq, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
